-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x768 : Shape := ⟨3, ![16, 512, 768]⟩
abbrev S16x1024x768 : Shape := ⟨3, ![16, 1024, 768]⟩
abbrev S512x768 : Shape := ⟨2, ![512, 768]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S16x1024x768 : S_.BroadcastsInDim S16x1024x768 (![] : Fin 0 → Fin S16x1024x768.rank)
  reducesTo_S16x1024x768_S_d0_1_2 : S16x1024x768.ReducesTo [0, 1, 2] S_
  bcast_S_S512x768 : S_.BroadcastsInDim S512x768 (![] : Fin 0 → Fin S512x768.rank)
  reducesTo_S512x768_S_d0_1 : S512x768.ReducesTo [0, 1] S_

variable [Facts]

def fn_part1 {F : FTy → Type} [FloatOps F] (main_arg4 : FVec F S512x768 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  main_v23

def fn {F : FTy → Type} [FloatOps F] (main_arg0 : FVec F S16x512x768 .f32) (main_arg1 : FVec F S16x1024x768 .f32) (main_arg2 : FVec F S512x768 .f32) (main_arg3 : FVec F S512x768 .f32) (main_arg4 : FVec F S512x768 .f32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S16x1024x768 .f32 := Host.absf main_arg1
  let main_cst_0 : FVec F S_ .f32 := constant S_ .f32 0x7F800000#32
  let main_v5 : FVec F S16x1024x768 .f32 := broadcastInDim S16x1024x768 ![] bcast_S_S16x1024x768 main_cst_0
  let main_v6 : IVec S16x1024x768 1 := cmpf .olt main_v4 main_v5
  let main_c_1 : IVec S_ 1 := constantI S_ 1 1#1
  let main_v7 : IVec S_ 1 := (fun x v => Host.reduce IntOp.andi x v reducesTo_S16x1024x768_S_d0_1_2 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_v13 main_v16
-- ==== Kernel.lean ====
abbrev S16x512x768 : Shape := ⟨3, ![16, 512, 768]⟩
abbrev S16x1024x768 : Shape := ⟨3, ![16, 1024, 768]⟩
abbrev S512x768 : Shape := ⟨2, ![512, 768]⟩
abbrev S768x512 : Shape := ⟨2, ![768, 512]⟩
abbrev S8192x768 : Shape := ⟨2, ![8192, 768]⟩
abbrev S16384x768 : Shape := ⟨2, ![16384, 768]⟩
abbrev S8192x512 : Shape := ⟨2, ![8192, 512]⟩
abbrev S1024x768 : Shape := ⟨2, ![1024, 768]⟩
abbrev S1024x512 : Shape := ⟨2, ![1024, 512]⟩
abbrev S16384x512 : Shape := ⟨2, ![16384, 512]⟩
abbrev S16x512x8x64 : Shape := ⟨4, ![16, 512, 8, 64]⟩
abbrev S16x8x512x64 : Shape := ⟨4, ![16, 8, 512, 64]⟩
abbrev S128x512x64 : Shape := ⟨3, ![128, 512, 64]⟩
abbrev S16x1024x8x64 : Shape := ⟨4, ![16, 1024, 8, 64]⟩
abbrev S16x8x1024x64 : Shape := ⟨4, ![16, 8, 1024, 64]⟩
abbrev S128x1024x64 : Shape := ⟨3, ![128, 1024, 64]⟩
abbrev S1x512x64 : Shape := ⟨3, ![1, 512, 64]⟩
abbrev S1x1024x64 : Shape := ⟨3, ![1, 1024, 64]⟩
abbrev S512x64 : Shape := ⟨2, ![512, 64]⟩
abbrev S1024x64 : Shape := ⟨2, ![1024, 64]⟩
abbrev S64x1024 : Shape := ⟨2, ![64, 1024]⟩
abbrev S512x1024 : Shape := ⟨2, ![512, 1024]⟩
abbrev S512 : Shape := ⟨1, ![512]⟩
abbrev S512x1 : Shape := ⟨2, ![512, 1]⟩
abbrev S16x512x512 : Shape := ⟨3, ![16, 512, 512]⟩

abbrev nBuf : Space → Nat
  | .hbm => 26
  | .vmem => 23
  | .smem => 0
  | _ => 0

abbrev bufTy : (tb : Table) → Fin (tcTables nBuf tb) → BufTy
  | .hbm, ⟨0, _⟩ => ⟨S16x512x768, .f32⟩
  | .hbm, ⟨1, _⟩ => ⟨S16x1024x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S768x512, .f32⟩
  | .hbm, ⟨6, _⟩ => ⟨S768x512, .f32⟩
  | .hbm, ⟨7, _⟩ => ⟨S768x512, .f32⟩
  | .hbm, ⟨8, _⟩ => ⟨S8192x768, .f32⟩
  | .hbm, ⟨9, _⟩ => ⟨S16384x768, .f32⟩
  | .hbm, ⟨10, _⟩ => ⟨S8192x512, .f32⟩
  | .hbm, ⟨11, _⟩ => ⟨S16384x512, .f32⟩
  | .hbm, ⟨12, _⟩ => ⟨S16384x512, .f32⟩
  | .hbm, ⟨13, _⟩ => ⟨S16x512x8x64, .f32⟩
  | .hbm, ⟨14, _⟩ => ⟨S16x8x512x64, .f32⟩
  | .hbm, ⟨15, _⟩ => ⟨S128x512x64, .f32⟩
  | .hbm, ⟨16, _⟩ => ⟨S16x1024x8x64, .f32⟩
  | .hbm, ⟨17, _⟩ => ⟨S16x8x1024x64, .f32⟩
  | .hbm, ⟨18, _⟩ => ⟨S128x1024x64, .f32⟩
  | .hbm, ⟨19, _⟩ => ⟨S16x1024x8x64, .f32⟩
  | .hbm, ⟨20, _⟩ => ⟨S16x8x1024x64, .f32⟩
  | .hbm, ⟨21, _⟩ => ⟨S128x1024x64, .f32⟩
  | .hbm, ⟨22, _⟩ => ⟨S128x512x64, .f32⟩
  | .hbm, ⟨23, _⟩ => ⟨S16x8x512x64, .f32⟩
  | .hbm, ⟨24, _⟩ => ⟨S16x512x8x64, .f32⟩
  | .hbm, ⟨25, _⟩ => ⟨S16x512x512, .f32⟩
  | .local _ .vmem, ⟨0, _⟩ => ⟨S1024x768, .f32⟩
  | .local _ .vmem, ⟨1, _⟩ => ⟨S1024x768, .f32⟩
  | .local _ .vmem, ⟨2, _⟩ => ⟨S768x512, .f32⟩
  | .local _ .vmem, ⟨3, _⟩ => ⟨S1024x512, .f32⟩
  | .local _ .vmem, ⟨4, _⟩ => ⟨S1024x512, .f32⟩
  | .local _ .vmem, ⟨5, _⟩ => ⟨S1024x768, .f32⟩
  | .local _ .vmem, ⟨6, _⟩ => ⟨S1024x768, .f32⟩
  | .local _ .vmem, ⟨7, _⟩ => ⟨S768x512, .f32⟩
  | .local _ .vmem, ⟨8, _⟩ => ⟨S1024x512, .f32⟩
  | .local _ .vmem, ⟨9, _⟩ => ⟨S1024x512, .f32⟩
  | .local _ .vmem, ⟨10, _⟩ => ⟨S1024x768, .f32⟩
  | .local _ .vmem, ⟨11, _⟩ => ⟨S1024x768, .f32⟩
  | .local _ .vmem, ⟨12, _⟩ => ⟨S768x512, .f32⟩
  | .local _ .vmem, ⟨13, _⟩ => ⟨S1024x512, .f32⟩
  | .local _ .vmem, ⟨14, _⟩ => ⟨S1024x512, .f32⟩
  | .local _ .vmem, ⟨15, _⟩ => ⟨S1x512x64, .f32⟩
  | .local _ .vmem, ⟨16, _⟩ => ⟨S1x512x64, .f32⟩
  | .local _ .vmem, ⟨17, _⟩ => ⟨S1x1024x64, .f32⟩
  | .local _ .vmem, ⟨18, _⟩ => ⟨S1x1024x64, .f32⟩
  | .local _ .vmem, ⟨19, _⟩ => ⟨S1x1024x64, .f32⟩
  | .local _ .vmem, ⟨20, _⟩ => ⟨S1x1024x64, .f32⟩
  | .local _ .vmem, ⟨21, _⟩ => ⟨S1x512x64, .f32⟩
  | .local _ .vmem, ⟨22, _⟩ => ⟨S1x512x64, .f32⟩
  | _, _ => ⟨S16x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![128], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S512x768_S768x512_1_0 : S512x768.Transposes [1, 0] S768x512
  shapeCasts_S16x512x768_S8192x768 : S16x512x768.ShapeCasts S8192x768
  shapeCasts_S16x1024x768_S16384x768 : S16x1024x768.ShapeCasts S16384x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1024x512_S1024x512_0_0 : ∀ a, (![0, 0] : Fin 2 → Nat) a + S1024x512.size a ≤ S1024x512.size a
  h_S1024x512 : 0 < S1024x512.numel
  shapeCasts_S8192x512_S16x512x8x64 : S8192x512.ShapeCasts S16x512x8x64
  transposes_S16x512x8x64_S16x8x512x64_0_2_1_3 : S16x512x8x64.Transposes [0, 2, 1, 3] S16x8x512x64
  shapeCasts_S16x8x512x64_S128x512x64 : S16x8x512x64.ShapeCasts S128x512x64
  shapeCasts_S16384x512_S16x1024x8x64 : S16384x512.ShapeCasts S16x1024x8x64
  transposes_S16x1024x8x64_S16x8x1024x64_0_2_1_3 : S16x1024x8x64.Transposes [0, 2, 1, 3] S16x8x1024x64
  shapeCasts_S16x8x1024x64_S128x1024x64 : S16x8x1024x64.ShapeCasts S128x1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  reduces_S512x1024_S512 : S512x1024.Reduces [1] S512
  shapeCasts_S512_S512x1 : S512.ShapeCasts S512x1
  broadcasts_S512x1_S512x1024 : S512x1.Broadcasts S512x1024
  shapeCasts_S512x64_S1x512x64 : S512x64.ShapeCasts S1x512x64
  shapeCasts_S128x512x64_S16x8x512x64 : S128x512x64.ShapeCasts S16x8x512x64
  transposes_S16x8x512x64_S16x512x8x64_0_2_1_3 : S16x8x512x64.Transposes [0, 2, 1, 3] S16x512x8x64
  shapeCasts_S16x512x8x64_S16x512x512 : S16x512x8x64.ShapeCasts S16x512x512
  dot_S1024x768_S768x512_S1024x512_1_0_0_1_n_n_wf : DotDims.WF S1024x768 S768x512 S1024x512 [1] [0] [0] [1] [] []
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x512.size a ≤ S768x512.size a
  hwx0_1 : ∀ i : grid0.Coords, EltTy.bits .f32 = 32 ∨ (Rect.block (s := S768x512) S768x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S16384x768.size a
  hwx1_0 : ∀ i : grid1.Coords, EltTy.bits .f32 = 32 ∨ (Rect.block (s := S16384x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x512.size a ≤ S768x512.size a
  hwx1_1 : ∀ i : grid1.Coords, EltTy.bits .f32 = 32 ∨ (Rect.block (s := S768x512) S768x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S16384x512.size a
  hwx1_2 : ∀ i : grid1.Coords, EltTy.bits .f32 = 32 ∨ (Rect.block (s := S16384x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S16384x768.size a
  hwx2_0 : ∀ i : grid2.Coords, EltTy.bits .f32 = 32 ∨ (Rect.block (s := S16384x768) S1024x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x512.size a ≤ S768x512.size a
  hwx2_1 : ∀ i : grid2.Coords, EltTy.bits .f32 = 32 ∨ (Rect.block (s := S768x512) S768x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S16384x512.size a
  hwx2_2 : ∀ i : grid2.Coords, EltTy.bits .f32 = 32 ∨ (Rect.block (s := S16384x512) S1024x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S128x512x64.size a
  hwx3_0 : ∀ i : grid3.Coords, EltTy.bits .f32 = 32 ∨ (Rect.block (s := S128x512x64) S1x512x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024x64.size a ≤ S128x1024x64.size a
  hwx3_1 : ∀ i : grid3.Coords, EltTy.bits .f32 = 32 ∨ (Rect.block (s := S128x1024x64) S1x1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x64.size a ≤ S128x1024x64.size a
  hwx3_2 : ∀ i : grid3.Coords, EltTy.bits .f32 = 32 ∨ (Rect.block (s := S128x1024x64) S1x1024x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S128x512x64.size a
  hwx3_3 : ∀ i : grid3.Coords, EltTy.bits .f32 = 32 ∨ (Rect.block (s := S128x512x64) S1x512x64.size (cc3_transform_3 i) (hinb3_3 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v3) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S768x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S768x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1x1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16x512x768 : Shape := ⟨3, ![16, 512, 768]⟩
abbrev S16x1024x768 : Shape := ⟨3, ![16, 1024, 768]⟩
abbrev S512x768 : Shape := ⟨2, ![512, 768]⟩
abbrev S16x512x512 : Shape := ⟨3, ![16, 512, 512]⟩
abbrev S16x512x8x64 : Shape := ⟨4, ![16, 512, 8, 64]⟩
abbrev S16x8x512x64 : Shape := ⟨4, ![16, 8, 512, 64]⟩
abbrev S16x1024x512 : Shape := ⟨3, ![16, 1024, 512]⟩
abbrev S16x1024x8x64 : Shape := ⟨4, ![16, 1024, 8, 64]⟩
abbrev S16x8x1024x64 : Shape := ⟨4, ![16, 8, 1024, 64]⟩
abbrev S16x8x512x1024 : Shape := ⟨4, ![16, 8, 512, 1024]⟩
abbrev S_ : Shape := ⟨0, ![]⟩
abbrev S16x8x512 : Shape := ⟨3, ![16, 8, 512]⟩
abbrev S16x8x512x1 : Shape := ⟨4, ![16, 8, 512, 1]⟩

abbrev nBuf : Space → Nat
  | .hbm => 53
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S16x1024x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S16x512x512, .f32⟩
  | .hbm, ⟨6, _⟩ => ⟨S16x512x8x64, .f32⟩
  | .hbm, ⟨7, _⟩ => ⟨S16x8x512x64, .f32⟩
  | .hbm, ⟨8, _⟩ => ⟨S16x1024x512, .f32⟩
  | .hbm, ⟨9, _⟩ => ⟨S16x1024x8x64, .f32⟩
  | .hbm, ⟨10, _⟩ => ⟨S16x8x1024x64, .f32⟩
  | .hbm, ⟨11, _⟩ => ⟨S16x1024x512, .f32⟩
  | .hbm, ⟨12, _⟩ => ⟨S16x1024x8x64, .f32⟩
  | .hbm, ⟨13, _⟩ => ⟨S16x8x1024x64, .f32⟩
  | .hbm, ⟨14, _⟩ => ⟨S16x8x512x1024, .f32⟩
  | .hbm, ⟨15, _⟩ => ⟨S_, .f32⟩
  | .hbm, ⟨16, _⟩ => ⟨S16x8x512x1024, .f32⟩
  | .hbm, ⟨17, _⟩ => ⟨S16x8x512x1024, .f32⟩
  | .hbm, ⟨18, _⟩ => ⟨S_, .f32⟩
  | .hbm, ⟨19, _⟩ => ⟨S16x8x512, .f32⟩
  | .hbm, ⟨20, _⟩ => ⟨S_, .f32⟩
  | .hbm, ⟨21, _⟩ => ⟨S16x8x512, .f32⟩
  | .hbm, ⟨22, _⟩ => ⟨S16x8x512, .f32⟩
  | .hbm, ⟨23, _⟩ => ⟨S16x8x512x1, .f32⟩
  | .hbm, ⟨24, _⟩ => ⟨S16x8x512x1024, .f32⟩
  | .hbm, ⟨25, _⟩ => ⟨S16x8x512x1024, .f32⟩
  | .hbm, ⟨26, _⟩ => ⟨S16x8x512x1024, .f32⟩
  | .hbm, ⟨27, _⟩ => ⟨S_, .f32⟩
  | .hbm, ⟨28, _⟩ => ⟨S16x8x512, .f32⟩
  | .hbm, ⟨29, _⟩ => ⟨S16x8x512x1, .f32⟩
  | .hbm, ⟨30, _⟩ => ⟨S16x8x512x1024, .f32⟩
  | .hbm, ⟨31, _⟩ => ⟨S16x8x512x1024, .f32⟩
  | .hbm, ⟨32, _⟩ => ⟨S_, .f32⟩
  | .hbm, ⟨33, _⟩ => ⟨S16x8x512x1024, .f32⟩
  | .hbm, ⟨34, _⟩ => ⟨S16x8x512x1024, .f32⟩
  | .hbm, ⟨35, _⟩ => ⟨S_, .f32⟩
  | .hbm, ⟨36, _⟩ => ⟨S16x8x512, .f32⟩
  | .hbm, ⟨37, _⟩ => ⟨S_, .f32⟩
  | .hbm, ⟨38, _⟩ => ⟨S16x8x512, .f32⟩
  | .hbm, ⟨39, _⟩ => ⟨S16x8x512, .f32⟩
  | .hbm, ⟨40, _⟩ => ⟨S16x8x512x1, .f32⟩
  | .hbm, ⟨41, _⟩ => ⟨S16x8x512x1024, .f32⟩
  | .hbm, ⟨42, _⟩ => ⟨S16x8x512x1024, .f32⟩
  | .hbm, ⟨43, _⟩ => ⟨S16x8x512x1024, .f32⟩
  | .hbm, ⟨44, _⟩ => ⟨S_, .f32⟩
  | .hbm, ⟨45, _⟩ => ⟨S16x8x512, .f32⟩
  | .hbm, ⟨46, _⟩ => ⟨S16x8x512x1, .f32⟩
  | .hbm, ⟨47, _⟩ => ⟨S16x8x512x1024, .f32⟩
  | .hbm, ⟨48, _⟩ => ⟨S16x8x512x1024, .f32⟩
  | .hbm, ⟨49, _⟩ => ⟨S16x8x512x64, .f32⟩
  | .hbm, ⟨50, _⟩ => ⟨S16x8x512x64, .f32⟩
  | .hbm, ⟨51, _⟩ => ⟨S16x512x8x64, .f32⟩
  | .hbm, ⟨52, _⟩ => ⟨S16x512x512, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  shapeCasts_S16x512x512_S16x512x8x64 : S16x512x512.ShapeCasts S16x512x8x64
  transposes_S16x512x8x64_S16x8x512x64_0_2_1_3 : S16x512x8x64.Transposes [0, 2, 1, 3] S16x8x512x64
  shapeCasts_S16x1024x512_S16x1024x8x64 : S16x1024x512.ShapeCasts S16x1024x8x64
  transposes_S16x1024x8x64_S16x8x1024x64_0_2_1_3 : S16x1024x8x64.Transposes [0, 2, 1, 3] S16x8x1024x64
  bcast_S_S16x8x512x1024 : S_.BroadcastsInDim S16x8x512x1024 (![] : Fin 0 → Fin S16x8x512x1024.rank)
  reducesTo_S16x8x512x1024_S16x8x512_d3 : S16x8x512x1024.ReducesTo [3] S16x8x512
  h_S_ : 0 < S_.numel
  bcast_S_S16x8x512 : S_.BroadcastsInDim S16x8x512 (![] : Fin 0 → Fin S16x8x512.rank)
  bcast_S16x8x512_S16x8x512x1_0_1_2 : S16x8x512.BroadcastsInDim S16x8x512x1 (![0, 1, 2] : Fin 3 → Fin S16x8x512x1.rank)
  bcast_S16x8x512x1_S16x8x512x1024_0_1_2_3 : S16x8x512x1.BroadcastsInDim S16x8x512x1024 (![0, 1, 2, 3] : Fin 4 → Fin S16x8x512x1024.rank)
  transposes_S16x8x512x64_S16x512x8x64_0_2_1_3 : S16x8x512x64.Transposes [0, 2, 1, 3] S16x512x8x64
  shapeCasts_S16x512x8x64_S16x512x512 : S16x512x8x64.ShapeCasts S16x512x512
  dot_S16x512x768_S512x768_S16x512x512_2_1_01_0_n_n_wf : DotDims.WF S16x512x768 S512x768 S16x512x512 [2] [1] [0, 1] [0] [] []
  dot_S16x1024x768_S512x768_S16x1024x512_2_1_01_0_n_n_wf : DotDims.WF S16x1024x768 S512x768 S16x1024x512 [2] [1] [0, 1] [0] [] []
  dot_S16x8x512x64_S16x8x1024x64_S16x8x512x1024_3_3_2_2_01_01_wf : DotDims.WF S16x8x512x64 S16x8x1024x64 S16x8x512x1024 [3] [3] [2] [2] [0, 1] [0, 1]
  dot_S16x8x512x1024_S16x8x1024x64_S16x8x512x64_3_2_2_3_01_01_wf : DotDims.WF S16x8x512x1024 S16x8x1024x64 S16x8x512x64 [3] [2] [2] [3] [0, 1] [0, 1]

variable [Facts₀]

def dot_S16x512x768_S512x768_S16x512x512_2_1_01_0_n_n : DotDims S16x512x768 S512x768 S16x512x512 where
  lhsContracting := [2]
  rhsContracting := [1]
  lhsNonContracting := [0, 1]
  rhsNonContracting := [0]
  lhsBatch := []
  rhsBatch := []
  wf := dot_S16x512x768_S512x768_S16x512x512_2_1_01_0_n_n_wf
def dot_S16x1024x768_S512x768_S16x1024x512_2_1_01_0_n_n : DotDims S16x1024x768 S512x768 S16x1024x512 where
  lhsContracting := [2]
  rhsContracting := [1]
  lhsNonContracting := [0, 1]
  rhsNonContracting := [0]
  lhsBatch := []
  rhsBatch := []
  wf := dot_S16x1024x768_S512x768_S16x1024x512_2_1_01_0_n_n_wf
def dot_S16x8x512x64_S16x8x1024x64_S16x8x512x1024_3_3_2_2_01_01 : DotDims S16x8x512x64 S16x8x1024x64 S16x8x512x1024 where
  lhsContracting := [3]
  rhsContracting := [3]
  lhsNonContracting := [2]
  rhsNonContracting := [2]
  lhsBatch := [0, 1]
  rhsBatch := [0, 1]
  wf := dot_S16x8x512x64_S16x8x1024x64_S16x8x512x1024_3_3_2_2_01_01_wf
def dot_S16x8x512x1024_S16x8x1024x64_S16x8x512x64_3_2_2_3_01_01 : DotDims S16x8x512x1024 S16x8x1024x64 S16x8x512x64 where
  lhsContracting := [3]
  rhsContracting := [2]
  lhsNonContracting := [2]
  rhsNonContracting := [3]
  lhsBatch := [0, 1]
  rhsBatch := [0, 1]
  wf := dot_S16x8x512x1024_S16x8x1024x64_S16x8x512x64_3_2_2_3_01_01_wf

class Facts : Prop extends Facts₀ where

variable [Facts]
-- ==== Proof.Spec.lean ====
/-
  The mathematics both programs compute, over coordinates, on the extended reals.

  One attention head: for a query row `q n` (64 numbers), keys `k m` and values `v m` (1024 rows of 64), the scores
  `s m = (∑ d, q n d · k m d) · 1/8`, their softmax along `m` (subtract the row's maximum, exponentiate, divide by the
  row's sum), the softmax of `1 - ` that, and the result `q n d + ∑ m, w m · v m d`.  The row's maximum is the fold of
  `max` from `-∞` over the row, taken once more against `-∞`: the form in which both programs spell it.  A projection
  is the plain sum `∑ k, a k · w k` over the 768 input features.  Float literals stay as their binary words.
-/
import Idealize.ShloMosaic.PureOps.Ideal
import Idealize.ShloMosaic.Lib.ValueIdx

noncomputable section

open scoped BigOperators

namespace Cert.Spec

open Idealize.ShloMosaic

/-- A row's maximum: the fold of `max` from `-∞` over its 1024 entries, then `max` with `-∞` once more. -/
def rowMax (s : Fin 1024 → EReal) : EReal :=
  max (Ideal.ofBits .f32 0xFF800000#32) ((Finset.univ : Finset (Fin 1024)).fold max (Ideal.ofBits .f32 0xFF800000#32) s)

/-- The softmax of a row of 1024 extended reals, entry `m`: `exp (s m - max) / ∑ m', exp (s m' - max)`. -/
def softmaxRow (s : Fin 1024 → EReal) (m : Fin 1024) : EReal :=
  Ideal.div (Ideal.exp (s m - rowMax s)) (∑ m' : Fin 1024, Ideal.exp (s m' - rowMax s))

/-- A query row's scaled scores against the 1024 keys: `(∑ d, q d · k m d) · 1/8`. -/
def scoreRow (q : Fin 64 → EReal) (k : Fin 1024 → Fin 64 → EReal) (m : Fin 1024) : EReal :=
  (∑ d : Fin 64, q d * k m d) * Ideal.ofBits .f32 0x3E000000#32

/-- The attention weights of a query row: the softmax of one minus the softmax of its scores. -/
def weightRow (q : Fin 64 → EReal) (k : Fin 1024 → Fin 64 → EReal) (m : Fin 1024) : EReal :=
  softmaxRow (fun m' => Ideal.ofBits .f32 0x3F800000#32 - softmaxRow (scoreRow q k) m') m

/-- One head's output at row `n`, feature `d`: the query entry plus the weighted sum of the values. -/
def head (q : Fin 512 → Fin 64 → EReal) (k v : Fin 1024 → Fin 64 → EReal) (n : Fin 512) (d : Fin 64) : EReal :=
  q n d + ∑ m : Fin 1024, weightRow (q n) k m * v m d

/-- A projection's entry: the sum over the 768 input features of input times weight. -/
def proj (a w : Fin 768 → EReal) : EReal := ∑ k : Fin 768, a k * w k

end Cert.Spec

end
-- ==== Proof.KArr.lean ====
/-
  The kernel program's result as ONE function of its five argument arrays, built from whole-array pieces:
  a projection array (every row of the flattened input against every column of the transposed weight), the
  head array (each of the 128 (batch, head) slices of q, k, v through `Spec.head`), and the two re-layouts the
  host does around them (split the 512 features into 8 heads of 64, move the head axis in front of the
  sequence axis, merge batch and head; and back).
-/
import proofs.«146225_j27900107555210_1_alg».proof.Proof.Gen.KernelIdeal
import proofs.«146225_j27900107555210_1_alg».proof.Proof.Spec
import Idealize.ShloMosaic.Lib.ValueIdx

noncomputable section

open scoped BigOperators

namespace Cert.KernelIdeal.Val

open Cert.KernelIdeal Cert.KernelIdeal.Gen Idealize.ShloMosaic Idealize.ShloMosaic.ValueIdx

/-- The array type of shape `s` at the ideal instance. -/
abbrev Arr (s : Shape) : Type := (⟨s, .f32⟩ : BufTy).Contents (Elt Ideal)

/-- `M` rows of 768 features against a 768 × 512 weight: entry `(r, j)` is `∑ k, a (r, k) · w (k, j)`. -/
def projArr {M : ℕ} (a : Arr ⟨2, ![M, 768]⟩) (w : Arr S768x512) : Arr ⟨2, ![M, 512]⟩ :=
  fun i => Cert.Spec.proj (fun k => a (ix2 (i 0) k)) (fun k => w (ix2 k (i 1)))

/-- Slice `i 0` of q, k and v (each a [512 or 1024, 64] matrix) through one attention head. -/
def headArr (q : Arr S128x512x64) (k v : Arr S128x1024x64) : Arr S128x512x64 :=
  fun i => Cert.Spec.head (fun n d => q (ix3 (i 0) n d)) (fun mm d => k (ix3 (i 0) mm d)) (fun mm d => v (ix3 (i 0) mm d)) (i 1) (i 2)

/-- [16·512, 512] → [16, 512, 8, 64] → [16, 8, 512, 64] → [128, 512, 64]: the query projection laid out per head. -/
def inChainQ (a : Arr S8192x512) : Arr S128x512x64 :=
  shapeCast S128x512x64 (transpose S16x8x512x64 [0, 2, 1, 3] (shapeCast S16x512x8x64 a shapeCasts_S8192x512_S16x512x8x64)
    transposes_S16x512x8x64_S16x8x512x64_0_2_1_3) shapeCasts_S16x8x512x64_S128x512x64

/-- [16·1024, 512] → [16, 1024, 8, 64] → [16, 8, 1024, 64] → [128, 1024, 64]: a key or value projection laid out per head. -/
def inChainK (a : Arr S16384x512) : Arr S128x1024x64 :=
  shapeCast S128x1024x64 (transpose S16x8x1024x64 [0, 2, 1, 3] (shapeCast S16x1024x8x64 a shapeCasts_S16384x512_S16x1024x8x64)
    transposes_S16x1024x8x64_S16x8x1024x64_0_2_1_3) shapeCasts_S16x8x1024x64_S128x1024x64

/-- [128, 512, 64] → [16, 8, 512, 64] → [16, 512, 8, 64] → [16, 512, 512]: the heads' outputs laid back out. -/
def outChain (a : Arr S128x512x64) : Arr S16x512x512 :=
  shapeCast S16x512x512 (transpose S16x512x8x64 [0, 2, 1, 3] (shapeCast S16x8x512x64 a shapeCasts_S128x512x64_S16x8x512x64)
    transposes_S16x8x512x64_S16x512x8x64_0_2_1_3) shapeCasts_S16x512x8x64_S16x512x512

/-- The three projections' inputs as the first three kernel launches find them. -/
def xFlat (x : Arr S16x512x768) : Arr S8192x768 := shapeCast S8192x768 x shapeCasts_S16x512x768_S8192x768
def yFlat (y : Arr S16x1024x768) : Arr S16384x768 := shapeCast S16384x768 y shapeCasts_S16x1024x768_S16384x768
def wT (w : Arr S512x768) : Arr S768x512 := transpose S768x512 [1, 0] w transposes_S512x768_S768x512_1_0

/-- The kernel program's result array as a function of its argument arrays. -/
def KG (x : Arr S16x512x768) (y : Arr S16x1024x768) (wq wk wv : Arr S512x768) : Arr S16x512x512 :=
  outChain (headArr (inChainQ (projArr (M := 8192) (xFlat x) (wT wq)))
    (inChainK (projArr (M := 16384) (yFlat y) (wT wk)))
    (inChainK (projArr (M := 16384) (yFlat y) (wT wv))))

end Cert.KernelIdeal.Val

end
-- ==== Proof.KPayProj.lean ====
/-
  A projection kernel's stored value at an entry: the block of 1024 rows times the whole 768 × 512 weight,
  entry `(r, j)`, is `∑ k, a (r, k) · w (k, j)` (the casts to bf16 are the identity on extended reals, the
  accumulator is the zero splat).
-/
import proofs.«146225_j27900107555210_1_alg».proof.Proof.Gen.KernelIdeal.Skeleton
import proofs.«146225_j27900107555210_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.ValueIdx

/-- The left operand's row coordinate at an output entry is the entry's row (axis 0 of the left operand is not contracted). -/
theorem lhs_proj_0 (i : S1024x512.Idx) (q : dot_S1024x768_S768x512_S1024x512_1_0_0_1_n_n.contr.Idx) :
    (dot_S1024x768_S768x512_S1024x512_1_0_0_1_n_n.lhsIdx i q 0).val = (i 0).val := by
  unfold DotDims.lhsIdx
  rw [dif_neg (show ¬(0 : Fin S1024x768.rank) ∈ dot_S1024x768_S768x512_S1024x512_1_0_0_1_n_n.lhsBatch by decide), dif_pos (show (0 : Fin S1024x768.rank) ∈ dot_S1024x768_S768x512_S1024x512_1_0_0_1_n_n.lhsNonContracting by decide)]
  rfl

/-- The left operand's column coordinate is the contraction index (axis 1 of the left operand is the contracted one). -/
theorem lhs_proj_1 (i : S1024x512.Idx) (q : dot_S1024x768_S768x512_S1024x512_1_0_0_1_n_n.contr.Idx) :
    (dot_S1024x768_S768x512_S1024x512_1_0_0_1_n_n.lhsIdx i q 1).val = (q ⟨0, by decide⟩).val :=
  dot_S1024x768_S768x512_S1024x512_1_0_0_1_n_n.lhsIdx_val_of_single rfl i q

/-- The right operand's row coordinate is the contraction index (axis 0 of the right operand is the contracted one). -/
theorem rhs_proj_0 (i : S1024x512.Idx) (q : dot_S1024x768_S768x512_S1024x512_1_0_0_1_n_n.contr.Idx) :
    (dot_S1024x768_S768x512_S1024x512_1_0_0_1_n_n.rhsIdx i q 0).val = (q ⟨0, by decide⟩).val :=
  dot_S1024x768_S768x512_S1024x512_1_0_0_1_n_n.rhsIdx_val_of_single rfl i q

/-- The right operand's column coordinate at an output entry is the entry's column (axis 1 of the right operand is not contracted). -/
theorem rhs_proj_1 (i : S1024x512.Idx) (q : dot_S1024x768_S768x512_S1024x512_1_0_0_1_n_n.contr.Idx) :
    (dot_S1024x768_S768x512_S1024x512_1_0_0_1_n_n.rhsIdx i q 1).val = (i 1).val := by
  unfold DotDims.rhsIdx
  rw [dif_neg (show ¬(1 : Fin S768x512.rank) ∈ dot_S1024x768_S768x512_S1024x512_1_0_0_1_n_n.rhsBatch by decide), dif_pos (show (1 : Fin S768x512.rank) ∈ dot_S1024x768_S768x512_S1024x512_1_0_0_1_n_n.rhsNonContracting by decide)]
  rfl

theorem pay_proj0 (x0 : Vec Ideal S1024x768 .f32) (x1 : Vec Ideal S768x512 .f32) (r : Fin 1024) (j : Fin 512) :
    k0_pay1 x0 x1 (ix2 r j) = ∑ k : Fin 768, x0 (ix2 r k) * x1 (ix2 k j) := by
  unfold k0_pay1
  -- both same-shape casts are the identity
  rw [shapeCast_self, shapeCast_self]
  simp only [matmul]
  -- into the zero accumulator the product is the bare sum over the contraction index
  rw [Ideal.matmul_constant_zero_apply, ← Equiv.sum_comp (contrEquiv1 dot_S1024x768_S768x512_S1024x512_1_0_0_1_n_n 768 rfl rfl).symm]
  refine Finset.sum_congr rfl fun k _ => ?_
  have hk := contrEquiv1_symm_val dot_S1024x768_S768x512_S1024x512_1_0_0_1_n_n 768 rfl rfl k
  -- the left operand is read at (r, k), the right one at (k, j)
  have el : dot_S1024x768_S768x512_S1024x512_1_0_0_1_n_n.lhsIdx (ix2 r j) ((contrEquiv1 dot_S1024x768_S768x512_S1024x512_1_0_0_1_n_n 768 rfl rfl).symm k) = ix2 r k := funext fun a => Fin.ext (by
    match a with
    | ⟨0, _⟩ => exact lhs_proj_0 _ _
    | ⟨1, _⟩ => exact (lhs_proj_1 _ _).trans hk)
  have er : dot_S1024x768_S768x512_S1024x512_1_0_0_1_n_n.rhsIdx (ix2 r j) ((contrEquiv1 dot_S1024x768_S768x512_S1024x512_1_0_0_1_n_n 768 rfl rfl).symm k) = ix2 k j := funext fun a => Fin.ext (by
    match a with
    | ⟨0, _⟩ => exact (rhs_proj_0 _ _).trans hk
    | ⟨1, _⟩ => exact rhs_proj_1 _ _)
  rw [el, er]
  -- the narrowing to bf16 is the identity on extended reals
  rfl

theorem pay_proj1 (x0 : Vec Ideal S1024x768 .f32) (x1 : Vec Ideal S768x512 .f32) (r : Fin 1024) (j : Fin 512) :
    k1_pay1 x0 x1 (ix2 r j) = ∑ k : Fin 768, x0 (ix2 r k) * x1 (ix2 k j) := pay_proj0 x0 x1 r j

theorem pay_proj2 (x0 : Vec Ideal S1024x768 .f32) (x1 : Vec Ideal S768x512 .f32) (r : Fin 1024) (j : Fin 512) :
    k2_pay1 x0 x1 (ix2 r j) = ∑ k : Fin 768, x0 (ix2 r k) * x1 (ix2 k j) := pay_proj0 x0 x1 r j

end Cert.KernelIdeal.Val

end
-- ==== Proof.KFinalP.lean ====
/-
  The three projection launches: each output array after the launch is the projection array of the two input
  arrays as the launch found them — the grid's points write disjoint blocks of 1024 rows that tile the rows.

  Per launch the argument is the same. Point `t` of the grid sees rows `1024 t … 1024 t + 1023` of the
  [M, 768] input, the whole [768, 512] weight, and writes rows `1024 t … 1024 t + 1023` of the [M, 512] output.
  The body leaves in the output block entry `(r, j) ↦ ∑ k, x (r, k) · w (k, j)` of the two blocks it was given,
  which is entry `(1024 t + r, j)` of the projection array. Row `ρ` of the output lies in the block of the point
  `ρ / 1024`, so the blocks cover the array and it ends holding the projection array everywhere.
-/
import proofs.«146225_j27900107555210_1_alg».proof.Proof.Gen.KernelIdeal.Frame
import proofs.«146225_j27900107555210_1_alg».proof.Proof.KArr
import proofs.«146225_j27900107555210_1_alg».proof.Proof.KPayProj
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The block's corner is the origin. -/
theorem zeroCorner : (![0, 0] : Fin 2 → Nat) = fun _ => 0 := funext fun a => by fin_cases a <;> rfl

/-! ## Launch 0: [8192, 768] · [768, 512], 8 blocks of 1024 rows -/

/-- The block index maps of launch 0 over its 8 points: the input's and the output's blocks move down the rows with
    the point, on the one column block there is; the weight's block never moves. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the input block at point `t` is entry `(1024 t + y₀, y₁)` of the input array. -/
theorem rowBlock0 (c : Dev nD) (t : Fin cfg0.N) (y : S1024x768.Idx) (i : S8192x768.Idx)
    (h0 : (i 0).val = t.val * 1024 + (y 0).val) (h1 : (i 1).val = (y 1).val) :
    iblk0 V c 0 t y = V c main_v3 i := by
  show V c main_v3 (((cfg0.win 0).blk t).view.emb y) = V c main_v3 i
  refine congrArg _ ?_
  funext a; apply Fin.ext
  obtain ⟨e0, e1, -⟩ := blockIndex0 t
  match a with
  | ⟨0, _⟩ => show win0_0.index t (0 : Fin 2) * 1024 + 1 * (y 0).val = (i 0).val; omega
  | ⟨1, _⟩ => show win0_0.index t (1 : Fin 2) * 768 + 1 * (y 1).val = (i 1).val; omega

/-- The weight block at any point is the whole weight array. -/
theorem weightBlock0 (c : Dev nD) (t : Fin cfg0.N) (y : S768x512.Idx) (i : S768x512.Idx)
    (h0 : (i 0).val = (y 0).val) (h1 : (i 1).val = (y 1).val) :
    iblk0 V c 1 t y = V c main_v0 i := by
  show V c main_v0 (((cfg0.win 1).blk t).view.emb y) = V c main_v0 i
  refine congrArg _ ?_
  funext a; apply Fin.ext
  obtain ⟨-, -, e0, e1, -⟩ := blockIndex0 t
  match a with
  | ⟨0, _⟩ => show win0_1.index t (0 : Fin 2) * 768 + 1 * (y 0).val = (i 0).val; omega
  | ⟨1, _⟩ => show win0_1.index t (1 : Fin 2) * 512 + 1 * (y 1).val = (i 1).val; omega

/-- One entry of the body's result against one entry of the projection array: when row `r` of the block `x0` is row
    `i₀` of `a`, and column `j` of the block `x1` is column `i₁` of `w`, the two sums over the 768 features agree
    term by term. -/
theorem projEntry0 (x0 : Vec Ideal S1024x768 .f32) (x1 : Vec Ideal S768x512 .f32) (a : Arr S8192x768) (w : Arr S768x512)
    (r : Fin 1024) (j : Fin 512) (i : S8192x512.Idx)
    (h0 : ∀ k : Fin 768, x0 (ix2 r k) = a (ix2 (i 0) k)) (h1 : ∀ k : Fin 768, x1 (ix2 k j) = w (ix2 k (i 1))) :
    k0_pay1 x0 x1 (ix2 r j) = projArr (M := 8192) a w i := by
  rw [pay_proj0]
  show ∑ k : Fin 768, x0 (ix2 r k) * x1 (ix2 k j) = ∑ k : Fin 768, a (ix2 (i 0) k) * w (ix2 k (i 1))
  exact Finset.sum_congr rfl (fun k _ => by rw [h0 k, h1 k])

/-- What point `t` writes back is block `t` of the projection array of the two arrays the launch found. -/
theorem written0 (c : Dev nD) (t : Fin cfg0.N) :
    (dat0 (F := Ideal) V c).flushed 2 t
      = ((cfg0.win 2).blk t).view.read (Elt Ideal) (projArr (M := 8192) (V c main_v3) (V c main_v0)) := by
  show (cfg0.win 2).cut (grid0.coords t) ((dat0 V c).after 2 t) = _
  rw [after0_2]
  unfold out0_2
  rw [View.canon_unit_zero zeroCorner]
  simp only [View.ld_unit_zero (S := S1024x768) zeroCorner, View.ld_unit_zero (S := S768x512) zeroCorner]
  funext y
  obtain ⟨r, j, rfl⟩ : ∃ (r : Fin 1024) (j : Fin 512), y = ix2 r j := ⟨y 0, y 1, eq_ix2 y⟩
  show k0_pay1 (iblk0 V c 0 t) (iblk0 V c 1 t) (ix2 r j)
    = projArr (M := 8192) (V c main_v3) (V c main_v0) (((cfg0.win 2).blk t).view.emb (ix2 r j))
  obtain ⟨-, -, -, -, e0, e1⟩ := blockIndex0 t
  refine projEntry0 _ _ _ _ r j _ (fun k => rowBlock0 V c t _ _ ?_ ?_) (fun k => weightBlock0 V c t _ _ ?_ ?_)
  · show win0_2.index t (0 : Fin 2) * 1024 + 1 * r.val = t.val * 1024 + r.val; omega
  · rfl
  · rfl
  · show win0_2.index t (1 : Fin 2) * 512 + 1 * j.val = j.val; omega

/-- An index of the output array is in point `t`'s block iff each coordinate is in the block's range on its axis. -/
theorem memBlock0 (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v5).slice (win0_2.rect t)).set ↔ _
  rw [View.set_slice_whole, Rect.mem_set_unit]
  exact Iff.rfl

/-- Row `i₀` of the output lies in the block of the point `i₀ / 1024`, and every point writes its block back. -/
theorem rowsCovered0 (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : (i 0).val / 1024 < cfg0.N := by show _ < grid0.N; rw [N_0]; omega
  refine ⟨⟨(i 0).val / 1024, hN⟩, flush0_2 _, ?_⟩
  rw [memBlock0]
  obtain ⟨-, -, -, -, e0, e1⟩ := blockIndex0 ⟨(i 0).val / 1024, hN⟩
  have e0' : win0_2.index ⟨(i 0).val / 1024, hN⟩ (0 : Fin 2) = (i 0).val / 1024 := e0
  intro a
  match a with
  | ⟨0, _⟩ =>
    show win0_2.index _ (0 : Fin 2) * 1024 ≤ (i 0).val ∧ (i 0).val < win0_2.index _ (0 : Fin 2) * 1024 + 1024
    omega
  | ⟨1, _⟩ =>
    show win0_2.index _ (1 : Fin 2) * 512 ≤ (i 1).val ∧ (i 1).val < win0_2.index _ (1 : Fin 2) * 512 + 512
    omega

theorem final0 (c : Dev nD) : (dat0 (F := Ideal) V c).arrAt 2 cfg0.N = projArr (M := 8192) (V c main_v3) (V c main_v0) :=
  (dat0 (F := Ideal) V c).arrAt_eq_of_cover 2 _ (fun t _ => written0 V c t) rowsCovered0

/-! ## Launch 1: [16384, 768] · [768, 512], 16 blocks of 1024 rows -/

/-- The block index maps of launch 1 over its 16 points: the input's and the output's blocks move down the rows with
    the point, on the one column block there is; the weight's block never moves. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `y` of the input block at point `t` is entry `(1024 t + y₀, y₁)` of the input array. -/
theorem rowBlock1 (c : Dev nD) (t : Fin cfg1.N) (y : S1024x768.Idx) (i : S16384x768.Idx)
    (h0 : (i 0).val = t.val * 1024 + (y 0).val) (h1 : (i 1).val = (y 1).val) :
    iblk1 V c 0 t y = V c main_v4 i := by
  show V c main_v4 (((cfg1.win 0).blk t).view.emb y) = V c main_v4 i
  refine congrArg _ ?_
  funext a; apply Fin.ext
  obtain ⟨e0, e1, -⟩ := blockIndex1 t
  match a with
  | ⟨0, _⟩ => show win1_0.index t (0 : Fin 2) * 1024 + 1 * (y 0).val = (i 0).val; omega
  | ⟨1, _⟩ => show win1_0.index t (1 : Fin 2) * 768 + 1 * (y 1).val = (i 1).val; omega

/-- The weight block at any point is the whole weight array. -/
theorem weightBlock1 (c : Dev nD) (t : Fin cfg1.N) (y : S768x512.Idx) (i : S768x512.Idx)
    (h0 : (i 0).val = (y 0).val) (h1 : (i 1).val = (y 1).val) :
    iblk1 V c 1 t y = V c main_v1 i := by
  show V c main_v1 (((cfg1.win 1).blk t).view.emb y) = V c main_v1 i
  refine congrArg _ ?_
  funext a; apply Fin.ext
  obtain ⟨-, -, e0, e1, -⟩ := blockIndex1 t
  match a with
  | ⟨0, _⟩ => show win1_1.index t (0 : Fin 2) * 768 + 1 * (y 0).val = (i 0).val; omega
  | ⟨1, _⟩ => show win1_1.index t (1 : Fin 2) * 512 + 1 * (y 1).val = (i 1).val; omega

/-- One entry of the body's result against one entry of the projection array: when row `r` of the block `x0` is row
    `i₀` of `a`, and column `j` of the block `x1` is column `i₁` of `w`, the two sums over the 768 features agree
    term by term. -/
theorem projEntry1 (x0 : Vec Ideal S1024x768 .f32) (x1 : Vec Ideal S768x512 .f32) (a : Arr S16384x768) (w : Arr S768x512)
    (r : Fin 1024) (j : Fin 512) (i : S16384x512.Idx)
    (h0 : ∀ k : Fin 768, x0 (ix2 r k) = a (ix2 (i 0) k)) (h1 : ∀ k : Fin 768, x1 (ix2 k j) = w (ix2 k (i 1))) :
    k1_pay1 x0 x1 (ix2 r j) = projArr (M := 16384) a w i := by
  rw [pay_proj1]
  show ∑ k : Fin 768, x0 (ix2 r k) * x1 (ix2 k j) = ∑ k : Fin 768, a (ix2 (i 0) k) * w (ix2 k (i 1))
  exact Finset.sum_congr rfl (fun k _ => by rw [h0 k, h1 k])

/-- What point `t` writes back is block `t` of the projection array of the two arrays the launch found. -/
theorem written1 (c : Dev nD) (t : Fin cfg1.N) :
    (dat1 (F := Ideal) V c).flushed 2 t
      = ((cfg1.win 2).blk t).view.read (Elt Ideal) (projArr (M := 16384) (V c main_v4) (V c main_v1)) := by
  show (cfg1.win 2).cut (grid1.coords t) ((dat1 V c).after 2 t) = _
  rw [after1_2]
  unfold out1_2
  rw [View.canon_unit_zero zeroCorner]
  simp only [View.ld_unit_zero (S := S1024x768) zeroCorner, View.ld_unit_zero (S := S768x512) zeroCorner]
  funext y
  obtain ⟨r, j, rfl⟩ : ∃ (r : Fin 1024) (j : Fin 512), y = ix2 r j := ⟨y 0, y 1, eq_ix2 y⟩
  show k1_pay1 (iblk1 V c 0 t) (iblk1 V c 1 t) (ix2 r j)
    = projArr (M := 16384) (V c main_v4) (V c main_v1) (((cfg1.win 2).blk t).view.emb (ix2 r j))
  obtain ⟨-, -, -, -, e0, e1⟩ := blockIndex1 t
  refine projEntry1 _ _ _ _ r j _ (fun k => rowBlock1 V c t _ _ ?_ ?_) (fun k => weightBlock1 V c t _ _ ?_ ?_)
  · show win1_2.index t (0 : Fin 2) * 1024 + 1 * r.val = t.val * 1024 + r.val; omega
  · rfl
  · rfl
  · show win1_2.index t (1 : Fin 2) * 512 + 1 * j.val = j.val; omega

/-- An index of the output array is in point `t`'s block iff each coordinate is in the block's range on its axis. -/
theorem memBlock1 (t : Fin cfg1.N) (i : S16384x512.Idx) :
    i ∈ ((cfg1.win 2).blk t).view.set ↔ ∀ a : Fin 2, win1_2.index t a * S1024x512.size a ≤ (i a).val
      ∧ (i a).val < win1_2.index t a * S1024x512.size a + S1024x512.size a := by
  show i ∈ ((View.whole main_v6).slice (win1_2.rect t)).set ↔ _
  rw [View.set_slice_whole, Rect.mem_set_unit]
  exact Iff.rfl

/-- Row `i₀` of the output lies in the block of the point `i₀ / 1024`, and every point writes its block back. -/
theorem rowsCovered1 (i : S16384x512.Idx) :
    ∃ t : Fin cfg1.N, (cfg1.win 2).flush t = true ∧ i ∈ ((cfg1.win 2).blk t).view.set := by
  have hi0 : (i 0).val < 16384 := (i 0).isLt
  have hi1 : (i 1).val < 512 := (i 1).isLt
  have hN : (i 0).val / 1024 < cfg1.N := by show _ < grid1.N; rw [N_1]; omega
  refine ⟨⟨(i 0).val / 1024, hN⟩, flush1_2 _, ?_⟩
  rw [memBlock1]
  obtain ⟨-, -, -, -, e0, e1⟩ := blockIndex1 ⟨(i 0).val / 1024, hN⟩
  have e0' : win1_2.index ⟨(i 0).val / 1024, hN⟩ (0 : Fin 2) = (i 0).val / 1024 := e0
  intro a
  match a with
  | ⟨0, _⟩ =>
    show win1_2.index _ (0 : Fin 2) * 1024 ≤ (i 0).val ∧ (i 0).val < win1_2.index _ (0 : Fin 2) * 1024 + 1024
    omega
  | ⟨1, _⟩ =>
    show win1_2.index _ (1 : Fin 2) * 512 ≤ (i 1).val ∧ (i 1).val < win1_2.index _ (1 : Fin 2) * 512 + 512
    omega

theorem final1 (c : Dev nD) : (dat1 (F := Ideal) V c).arrAt 2 cfg1.N = projArr (M := 16384) (V c main_v4) (V c main_v1) :=
  (dat1 (F := Ideal) V c).arrAt_eq_of_cover 2 _ (fun t _ => written1 V c t) rowsCovered1

/-! ## Launch 2: [16384, 768] · [768, 512], 16 blocks of 1024 rows -/

/-- The block index maps of launch 2 over its 16 points: the input's and the output's blocks move down the rows with
    the point, on the one column block there is; the weight's block never moves. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `y` of the input block at point `t` is entry `(1024 t + y₀, y₁)` of the input array. -/
theorem rowBlock2 (c : Dev nD) (t : Fin cfg2.N) (y : S1024x768.Idx) (i : S16384x768.Idx)
    (h0 : (i 0).val = t.val * 1024 + (y 0).val) (h1 : (i 1).val = (y 1).val) :
    iblk2 V c 0 t y = V c main_v4 i := by
  show V c main_v4 (((cfg2.win 0).blk t).view.emb y) = V c main_v4 i
  refine congrArg _ ?_
  funext a; apply Fin.ext
  obtain ⟨e0, e1, -⟩ := blockIndex2 t
  match a with
  | ⟨0, _⟩ => show win2_0.index t (0 : Fin 2) * 1024 + 1 * (y 0).val = (i 0).val; omega
  | ⟨1, _⟩ => show win2_0.index t (1 : Fin 2) * 768 + 1 * (y 1).val = (i 1).val; omega

/-- The weight block at any point is the whole weight array. -/
theorem weightBlock2 (c : Dev nD) (t : Fin cfg2.N) (y : S768x512.Idx) (i : S768x512.Idx)
    (h0 : (i 0).val = (y 0).val) (h1 : (i 1).val = (y 1).val) :
    iblk2 V c 1 t y = V c main_v2 i := by
  show V c main_v2 (((cfg2.win 1).blk t).view.emb y) = V c main_v2 i
  refine congrArg _ ?_
  funext a; apply Fin.ext
  obtain ⟨-, -, e0, e1, -⟩ := blockIndex2 t
  match a with
  | ⟨0, _⟩ => show win2_1.index t (0 : Fin 2) * 768 + 1 * (y 0).val = (i 0).val; omega
  | ⟨1, _⟩ => show win2_1.index t (1 : Fin 2) * 512 + 1 * (y 1).val = (i 1).val; omega

/-- One entry of the body's result against one entry of the projection array: when row `r` of the block `x0` is row
    `i₀` of `a`, and column `j` of the block `x1` is column `i₁` of `w`, the two sums over the 768 features agree
    term by term. -/
theorem projEntry2 (x0 : Vec Ideal S1024x768 .f32) (x1 : Vec Ideal S768x512 .f32) (a : Arr S16384x768) (w : Arr S768x512)
    (r : Fin 1024) (j : Fin 512) (i : S16384x512.Idx)
    (h0 : ∀ k : Fin 768, x0 (ix2 r k) = a (ix2 (i 0) k)) (h1 : ∀ k : Fin 768, x1 (ix2 k j) = w (ix2 k (i 1))) :
    k2_pay1 x0 x1 (ix2 r j) = projArr (M := 16384) a w i := by
  rw [pay_proj2]
  show ∑ k : Fin 768, x0 (ix2 r k) * x1 (ix2 k j) = ∑ k : Fin 768, a (ix2 (i 0) k) * w (ix2 k (i 1))
  exact Finset.sum_congr rfl (fun k _ => by rw [h0 k, h1 k])

/-- What point `t` writes back is block `t` of the projection array of the two arrays the launch found. -/
theorem written2 (c : Dev nD) (t : Fin cfg2.N) :
    (dat2 (F := Ideal) V c).flushed 2 t
      = ((cfg2.win 2).blk t).view.read (Elt Ideal) (projArr (M := 16384) (V c main_v4) (V c main_v2)) := by
  show (cfg2.win 2).cut (grid2.coords t) ((dat2 V c).after 2 t) = _
  rw [after2_2]
  unfold out2_2
  rw [View.canon_unit_zero zeroCorner]
  simp only [View.ld_unit_zero (S := S1024x768) zeroCorner, View.ld_unit_zero (S := S768x512) zeroCorner]
  funext y
  obtain ⟨r, j, rfl⟩ : ∃ (r : Fin 1024) (j : Fin 512), y = ix2 r j := ⟨y 0, y 1, eq_ix2 y⟩
  show k2_pay1 (iblk2 V c 0 t) (iblk2 V c 1 t) (ix2 r j)
    = projArr (M := 16384) (V c main_v4) (V c main_v2) (((cfg2.win 2).blk t).view.emb (ix2 r j))
  obtain ⟨-, -, -, -, e0, e1⟩ := blockIndex2 t
  refine projEntry2 _ _ _ _ r j _ (fun k => rowBlock2 V c t _ _ ?_ ?_) (fun k => weightBlock2 V c t _ _ ?_ ?_)
  · show win2_2.index t (0 : Fin 2) * 1024 + 1 * r.val = t.val * 1024 + r.val; omega
  · rfl
  · rfl
  · show win2_2.index t (1 : Fin 2) * 512 + 1 * j.val = j.val; omega

/-- An index of the output array is in point `t`'s block iff each coordinate is in the block's range on its axis. -/
theorem memBlock2 (t : Fin cfg2.N) (i : S16384x512.Idx) :
    i ∈ ((cfg2.win 2).blk t).view.set ↔ ∀ a : Fin 2, win2_2.index t a * S1024x512.size a ≤ (i a).val
      ∧ (i a).val < win2_2.index t a * S1024x512.size a + S1024x512.size a := by
  show i ∈ ((View.whole main_v7).slice (win2_2.rect t)).set ↔ _
  rw [View.set_slice_whole, Rect.mem_set_unit]
  exact Iff.rfl

/-- Row `i₀` of the output lies in the block of the point `i₀ / 1024`, and every point writes its block back. -/
theorem rowsCovered2 (i : S16384x512.Idx) :
    ∃ t : Fin cfg2.N, (cfg2.win 2).flush t = true ∧ i ∈ ((cfg2.win 2).blk t).view.set := by
  have hi0 : (i 0).val < 16384 := (i 0).isLt
  have hi1 : (i 1).val < 512 := (i 1).isLt
  have hN : (i 0).val / 1024 < cfg2.N := by show _ < grid2.N; rw [N_2]; omega
  refine ⟨⟨(i 0).val / 1024, hN⟩, flush2_2 _, ?_⟩
  rw [memBlock2]
  obtain ⟨-, -, -, -, e0, e1⟩ := blockIndex2 ⟨(i 0).val / 1024, hN⟩
  have e0' : win2_2.index ⟨(i 0).val / 1024, hN⟩ (0 : Fin 2) = (i 0).val / 1024 := e0
  intro a
  match a with
  | ⟨0, _⟩ =>
    show win2_2.index _ (0 : Fin 2) * 1024 ≤ (i 0).val ∧ (i 0).val < win2_2.index _ (0 : Fin 2) * 1024 + 1024
    omega
  | ⟨1, _⟩ =>
    show win2_2.index _ (1 : Fin 2) * 512 ≤ (i 1).val ∧ (i 1).val < win2_2.index _ (1 : Fin 2) * 512 + 512
    omega

theorem final2 (c : Dev nD) : (dat2 (F := Ideal) V c).arrAt 2 cfg2.N = projArr (M := 16384) (V c main_v4) (V c main_v2) :=
  (dat2 (F := Ideal) V c).arrAt_eq_of_cover 2 _ (fun t _ => written2 V c t) rowsCovered2

end Cert.KernelIdeal.Val

end
-- ==== Proof.KPayHead.lean ====
/-
  The attention kernel's stored value at an entry: from the point's three blocks (one head's q, k, v) the body
  computes exactly `Spec.head` — scores by a matrix product with the transposed keys times 1/8, two softmaxes
  along the key axis with `1 - ·` between them, the product with the values, plus the query.
-/
import proofs.«146225_j27900107555210_1_alg».proof.Proof.Gen.KernelIdeal.Skeleton
import proofs.«146225_j27900107555210_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.ValueIdx

/-! ## A column kept as a unit axis, then spread over the row -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `c`, kept as a `[512, 1]` column and spread over the 1024 keys, reads `c n` along row `n`. -/
theorem column_apply (c : (S512).Idx → α) (n : Fin 512) (m : Fin 1024) :
    broadcastTo S512x1024 (shapeCast S512x1 c shapeCasts_S512_S512x1) broadcasts_S512x1_S512x1024 (ix2 n m) = c (ix1 n) :=
  (broadcastTo_a1_ab_apply _ broadcasts_S512x1_S512x1024 n m).trans (shapeCast_a_a1_apply c shapeCasts_S512_S512x1 n 0)

end Column

/-! ## Reductions along the key axis -/

/-- Row `n` with key coordinate `k` put back on the reduced axis is the entry `(n, k)`. -/
theorem lift_row (n : Fin 512) (k : Fin 1024) :
    reduces_S512x1024_S512.lift (ix1 n) k = ix2 n k := by
  funext a
  apply Fin.ext
  match a with
  | ⟨0, _⟩ => rfl
  | ⟨1, _⟩ => rfl

/-- The maximum along the key axis, from `-∞`: the fold of `max` over the row. -/
theorem rowmax_apply (s : FVec Ideal S512x1024 .f32) (n : Fin 512) :
    multiReduction (F := Ideal) .maximumf [1] S512 s 0xFF800000#32 reduces_S512x1024_S512 (.inl rfl) rfl (ix1 n)
      = (Finset.univ : Finset (Fin 1024)).fold max (Ideal.ofBits .f32 0xFF800000#32) (fun m' => s (ix2 n m')) := by
  refine (Ideal.multiReduction_maximumf_single s 0xFF800000#32 reduces_S512x1024_S512 (.inl rfl) rfl (ix1 n)).trans ?_
  show (Finset.univ : Finset (Fin 1024)).fold max (Ideal.ofBits .f32 0xFF800000#32) (s ∘ reduces_S512x1024_S512.lift (ix1 n)) = _
  congr 1
  funext k
  exact congrArg s (lift_row n k)

/-- The sum along the key axis. -/
theorem rowsum_apply (s : FVec Ideal S512x1024 .f32) (n : Fin 512) :
    multiReduction (F := Ideal) .add [1] S512 s 0x00000000#32 reduces_S512x1024_S512 (.inl rfl) rfl (ix1 n)
      = ∑ m' : Fin 1024, s (ix2 n m') := by
  refine (Ideal.multiReduction_add_single s 0x00000000#32 reduces_S512x1024_S512 (.inl rfl) rfl (ix1 n)).trans ?_
  show ∑ k : Fin 1024, s (reduces_S512x1024_S512.lift (ix1 n) k) = _
  exact Finset.sum_congr rfl fun k _ => congrArg s (lift_row n k)

/-! ## The row softmax the body spells twice -/

/-- The row maxima of a score block, from `-∞` and taken against `-∞` once more, kept as a column and spread back
    over the keys. -/
def rowMaxCol (s : FVec Ideal S512x1024 .f32) : FVec Ideal S512x1024 .f32 :=
  broadcastTo S512x1024 (shapeCast S512x1
      (maximumf (broadcast S512 (Scalar.ofBits (F := Ideal) .f32 0xFF800000#32))
        (multiReduction (F := Ideal) .maximumf [1] S512 s 0xFF800000#32 reduces_S512x1024_S512 (.inl rfl) rfl))
      shapeCasts_S512_S512x1) broadcasts_S512x1_S512x1024

/-- The exponentials of a score block shifted by its row maxima. -/
def expShift (s : FVec Ideal S512x1024 .f32) : FVec Ideal S512x1024 .f32 :=
  exp (subf s (rowMaxCol s))

/-- The softmax along the key axis as the body prints it, over an arbitrary score block: the shifted exponentials over
    their row sums, the sums kept as a column and spread back over the keys. -/
def smBlock (s : FVec Ideal S512x1024 .f32) : FVec Ideal S512x1024 .f32 :=
  divf (expShift s)
    (broadcastTo S512x1024 (shapeCast S512x1
      (multiReduction (F := Ideal) .add [1] S512 (expShift s) 0x00000000#32 reduces_S512x1024_S512 (.inl rfl) rfl)
      shapeCasts_S512_S512x1) broadcasts_S512x1_S512x1024)

/-- The spread row maximum at an entry is the row's maximum. -/
theorem rowMaxCol_apply (s : FVec Ideal S512x1024 .f32) (n : Fin 512) (m : Fin 1024) :
    rowMaxCol s (ix2 n m) = Cert.Spec.rowMax (fun m' => s (ix2 n m')) := by
  unfold rowMaxCol
  refine (column_apply _ n m).trans ?_
  refine (maximumf_apply _ _ (ix1 n)).trans ?_
  unfold Cert.Spec.rowMax
  exact congrArg (max (Ideal.ofBits .f32 0xFF800000#32)) (rowmax_apply s n)

/-- The shifted exponential of a block at an entry: `exp (s (n, m) - rowMax)`. -/
theorem expShift_apply (s : FVec Ideal S512x1024 .f32) (n : Fin 512) (m : Fin 1024) :
    expShift s (ix2 n m) = Ideal.exp (s (ix2 n m) - Cert.Spec.rowMax (fun m' => s (ix2 n m'))) := by
  show Ideal.exp (s (ix2 n m) - rowMaxCol s (ix2 n m)) = _
  rw [rowMaxCol_apply]

/-- The block softmax at an entry is the row softmax of the block's row. -/
theorem smBlock_apply (s : FVec Ideal S512x1024 .f32) (n : Fin 512) (m : Fin 1024) :
    smBlock s (ix2 n m) = Cert.Spec.softmaxRow (fun m' => s (ix2 n m')) m := by
  unfold smBlock Cert.Spec.softmaxRow
  refine (divf_apply _ _ (ix2 n m)).trans ?_
  rw [column_apply, rowsum_apply, expShift_apply]
  refine congrArg (Ideal.div _) ?_
  exact Finset.sum_congr rfl fun m' _ => expShift_apply s n m'

/-! ## The two matrix products at an entry -/

theorem lhs_qk_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_qk_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_qk_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_qk_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- Queries times transposed keys into the zero block: at `(n, m)` the sum over the 64 features. -/
theorem mm_qk_apply (a : FVec Ideal S512x64 .bf16) (b : FVec Ideal S64x1024 .bf16) (n : Fin 512) (m : Fin 1024) :
    matmul dot_S512x64_S64x1024_S512x1024_1_0_0_1_n_n none a b (constant (F := Ideal) S512x1024 .f32 0x00000000#32) (ix2 n m)
      = ∑ k : Fin 64, a (ix2 n k) * b (ix2 k m) := by
  show FloatOps.matmul dot_S512x64_S64x1024_S512x1024_1_0_0_1_n_n none a b (constant (F := Ideal) S512x1024 .f32 0x00000000#32) (ix2 n m) = _
  rw [Ideal.matmul_constant_zero_apply, ← Equiv.sum_comp (ValueIdx.contrEquiv1 dot_S512x64_S64x1024_S512x1024_1_0_0_1_n_n 64 rfl rfl).symm]
  refine Finset.sum_congr rfl fun k _ => ?_
  have hk := ValueIdx.contrEquiv1_symm_val dot_S512x64_S64x1024_S512x1024_1_0_0_1_n_n 64 rfl rfl k
  have el : dot_S512x64_S64x1024_S512x1024_1_0_0_1_n_n.lhsIdx (ix2 n m) ((ValueIdx.contrEquiv1 dot_S512x64_S64x1024_S512x1024_1_0_0_1_n_n 64 rfl rfl).symm k) = ix2 n k := funext fun c => Fin.ext (by
    match c with
    | ⟨0, _⟩ => exact lhs_qk_0 _ _
    | ⟨1, _⟩ => exact (lhs_qk_1 _ _).trans hk)
  have er : dot_S512x64_S64x1024_S512x1024_1_0_0_1_n_n.rhsIdx (ix2 n m) ((ValueIdx.contrEquiv1 dot_S512x64_S64x1024_S512x1024_1_0_0_1_n_n 64 rfl rfl).symm k) = ix2 k m := funext fun c => Fin.ext (by
    match c with
    | ⟨0, _⟩ => exact (rhs_qk_0 _ _).trans hk
    | ⟨1, _⟩ => exact rhs_qk_1 _ _)
  rw [el, er]

theorem lhs_wv_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_wv_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_wv_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_wv_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- Weights times values into the zero block: at `(n, d)` the sum over the 1024 keys. -/
theorem mm_wv_apply (a : FVec Ideal S512x1024 .bf16) (b : FVec Ideal S1024x64 .bf16) (n : Fin 512) (m : Fin 64) :
    matmul dot_S512x1024_S1024x64_S512x64_1_0_0_1_n_n none a b (constant (F := Ideal) S512x64 .f32 0x00000000#32) (ix2 n m)
      = ∑ k : Fin 1024, a (ix2 n k) * b (ix2 k m) := by
  show FloatOps.matmul dot_S512x1024_S1024x64_S512x64_1_0_0_1_n_n none a b (constant (F := Ideal) S512x64 .f32 0x00000000#32) (ix2 n m) = _
  rw [Ideal.matmul_constant_zero_apply, ← Equiv.sum_comp (ValueIdx.contrEquiv1 dot_S512x1024_S1024x64_S512x64_1_0_0_1_n_n 1024 rfl rfl).symm]
  refine Finset.sum_congr rfl fun k _ => ?_
  have hk := ValueIdx.contrEquiv1_symm_val dot_S512x1024_S1024x64_S512x64_1_0_0_1_n_n 1024 rfl rfl k
  have el : dot_S512x1024_S1024x64_S512x64_1_0_0_1_n_n.lhsIdx (ix2 n m) ((ValueIdx.contrEquiv1 dot_S512x1024_S1024x64_S512x64_1_0_0_1_n_n 1024 rfl rfl).symm k) = ix2 n k := funext fun c => Fin.ext (by
    match c with
    | ⟨0, _⟩ => exact lhs_wv_0 _ _
    | ⟨1, _⟩ => exact (lhs_wv_1 _ _).trans hk)
  have er : dot_S512x1024_S1024x64_S512x64_1_0_0_1_n_n.rhsIdx (ix2 n m) ((ValueIdx.contrEquiv1 dot_S512x1024_S1024x64_S512x64_1_0_0_1_n_n 1024 rfl rfl).symm k) = ix2 k m := funext fun c => Fin.ext (by
    match c with
    | ⟨0, _⟩ => exact (rhs_wv_0 _ _).trans hk
    | ⟨1, _⟩ => exact rhs_wv_1 _ _)
  rw [el, er]

/-! ## The body over the block softmax -/

/-- The score block: queries times transposed keys, times 1/8. -/
def scoreBlk (x0 : Vec Ideal S1x512x64 .f32) (x1 : Vec Ideal S1x1024x64 .f32) : FVec Ideal S512x1024 .f32 :=
  mulf
    (matmul dot_S512x64_S64x1024_S512x1024_1_0_0_1_n_n none
      (truncf .bf16 (shapeCast S512x64 x0 shapeCasts_S1x512x64_S512x64 : FVec Ideal S512x64 .f32) bitsLt_bf16_f32)
      (transpose S64x1024 [1, 0]
        (truncf .bf16 (shapeCast S1024x64 x1 shapeCasts_S1x1024x64_S1024x64 : FVec Ideal S1024x64 .f32) bitsLt_bf16_f32 : FVec Ideal S1024x64 .bf16)
        transposes_S1024x64_p1_0_S64x1024)
      (constant (F := Ideal) S512x1024 .f32 0x00000000#32))
    (broadcast S512x1024 (Scalar.ofBits (F := Ideal) .f32 0x3E000000#32))

/-- The weight block: the softmax of one minus the softmax of the scores. -/
def weightBlk (x0 : Vec Ideal S1x512x64 .f32) (x1 : Vec Ideal S1x1024x64 .f32) : FVec Ideal S512x1024 .f32 :=
  smBlock (subf (broadcast S512x1024 (Scalar.ofBits (F := Ideal) .f32 0x3F800000#32)) (smBlock (scoreBlk x0 x1)))

/-- The printed body is the query block plus the weights times the values. -/
theorem k3_pay2_eq (x0 : Vec Ideal S1x512x64 .f32) (x1 x2 : Vec Ideal S1x1024x64 .f32) :
    k3_pay2 x0 x1 x2 =
      addf (shapeCast S512x64 x0 shapeCasts_S1x512x64_S512x64 : FVec Ideal S512x64 .f32)
        (matmul dot_S512x1024_S1024x64_S512x64_1_0_0_1_n_n none
          (truncf .bf16 (weightBlk x0 x1) bitsLt_bf16_f32)
          (truncf .bf16 (shapeCast S1024x64 x2 shapeCasts_S1x1024x64_S1024x64 : FVec Ideal S1024x64 .f32) bitsLt_bf16_f32)
          (constant (F := Ideal) S512x64 .f32 0x00000000#32)) := rfl

/-- A score entry is the row's scaled score. -/
theorem scoreBlk_apply (x0 : Vec Ideal S1x512x64 .f32) (x1 : Vec Ideal S1x1024x64 .f32) (n : Fin 512) (m : Fin 1024) :
    scoreBlk x0 x1 (ix2 n m)
      = Cert.Spec.scoreRow (fun d' => x0 (ix3 (0 : Fin 1) n d')) (fun mm d' => x1 (ix3 (0 : Fin 1) mm d')) m := by
  unfold scoreBlk Cert.Spec.scoreRow
  refine (mulf_apply _ _ (ix2 n m)).trans ?_
  rw [mm_qk_apply]
  refine congrArg₂ (· * ·) (Finset.sum_congr rfl fun k _ => ?_) rfl
  refine congrArg₂ (· * ·) ?_ ?_
  · exact shapeCast_1ab_ab_apply x0 shapeCasts_S1x512x64_S512x64 n k
  · refine (transpose_ix2_apply _ transposes_S1024x64_p1_0_S64x1024 k m).trans ?_
    exact shapeCast_1ab_ab_apply x1 shapeCasts_S1x1024x64_S1024x64 m k

/-- A weight entry is the row's attention weight. -/
theorem weightBlk_apply (x0 : Vec Ideal S1x512x64 .f32) (x1 : Vec Ideal S1x1024x64 .f32) (n : Fin 512) (m : Fin 1024) :
    weightBlk x0 x1 (ix2 n m)
      = Cert.Spec.weightRow (fun d' => x0 (ix3 (0 : Fin 1) n d')) (fun mm d' => x1 (ix3 (0 : Fin 1) mm d')) m := by
  unfold weightBlk Cert.Spec.weightRow
  rw [smBlock_apply]
  refine congrArg (fun f => Cert.Spec.softmaxRow f m) (funext fun m' => ?_)
  refine (subf_apply _ _ (ix2 n m')).trans ?_
  rw [smBlock_apply]
  have hs : (fun m'' => scoreBlk x0 x1 (ix2 n m''))
      = Cert.Spec.scoreRow (fun d' => x0 (ix3 (0 : Fin 1) n d')) (fun mm d' => x1 (ix3 (0 : Fin 1) mm d')) :=
    funext fun m'' => scoreBlk_apply x0 x1 n m''
  rw [hs]
  rfl

theorem pay_head (x0 : Vec Ideal S1x512x64 .f32) (x1 x2 : Vec Ideal S1x1024x64 .f32) (n : Fin 512) (d : Fin 64) :
    k3_pay1 (k3_pay2 x0 x1 x2) (ix3 (0 : Fin 1) n d)
      = Cert.Spec.head (fun n' d' => x0 (ix3 (0 : Fin 1) n' d')) (fun mm d' => x1 (ix3 (0 : Fin 1) mm d'))
          (fun mm d' => x2 (ix3 (0 : Fin 1) mm d')) n d := by
  unfold k3_pay1
  refine (shapeCast_ab_1ab_apply _ shapeCasts_S512x64_S1x512x64 (0 : Fin 1) n d).trans ?_
  rw [k3_pay2_eq]
  refine (addf_apply _ _ (ix2 n d)).trans ?_
  unfold Cert.Spec.head
  refine congrArg₂ (· + ·) (shapeCast_1ab_ab_apply x0 shapeCasts_S1x512x64_S512x64 n d) ?_
  rw [mm_wv_apply]
  refine Finset.sum_congr rfl fun m _ => ?_
  refine congrArg₂ (· * ·) ?_ ?_
  · exact weightBlk_apply x0 x1 n m
  · exact shapeCast_1ab_ab_apply x2 shapeCasts_S1x1024x64_S1024x64 m d

end Cert.KernelIdeal.Val

end
-- ==== Proof.KFinalH.lean ====
/-
  The attention launch: its output array after the launch is the head array of the three input arrays as the
  launch found them — point `t` of the 128 writes slice `t`, and the slices tile the array.
-/
import proofs.«146225_j27900107555210_1_alg».proof.Proof.Gen.KernelIdeal.Frame
import proofs.«146225_j27900107555210_1_alg».proof.Proof.KArr
import proofs.«146225_j27900107555210_1_alg».proof.Proof.KPayHead
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace AttnLaunch

/-- The zero offset vector of a rank-3 access. -/
theorem zero3 : (![0, 0, 0] : Fin 3 → Nat) = fun _ => 0 := funext fun a => by fin_cases a <;> rfl

/-- The four index maps, decided over the 128 points: point `t` uses block `(t, 0, 0)` of every array. -/
theorem index_facts3 : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0
    ∧ win3_3.index t (0 : Fin 3) = t.val ∧ win3_3.index t (1 : Fin 3) = 0 ∧ win3_3.index t (2 : Fin 3) = 0 :=
  (by decide +kernel : ∀ t : Fin grid3.N, _)

/-- A point of the grid as a slice number of the arrays. -/
def sliceOf (t : Fin cfg3.N) : Fin 128 := ⟨t.val, N_3 ▸ t.isLt⟩

/-- The query block at point `t` is slice `t` of the query array. -/
theorem qblock_apply (c : Dev nD) (t : Fin cfg3.N) (n : Fin 512) (d : Fin 64) :
    (iblk3 V c 0 t : Vec Ideal S1x512x64 .f32) (ix3 (0 : Fin 1) n d) = (V c main_v10 : Arr S128x512x64) (ix3 (sliceOf t) n d) := by
  obtain ⟨e0, e1, e2, -⟩ := index_facts3 t
  unfold iblk3
  rw [View.read_apply]
  show V c main_v10 _ = V c main_v10 _
  congr 1
  funext a
  apply Fin.ext
  match a with
  | ⟨0, _⟩ => show win3_0.index t (0 : Fin 3) * 1 + 1 * 0 = t.val; omega
  | ⟨1, _⟩ => show win3_0.index t (1 : Fin 3) * 512 + 1 * n.val = n.val; omega
  | ⟨2, _⟩ => show win3_0.index t (2 : Fin 3) * 64 + 1 * d.val = d.val; omega

/-- The key block at point `t` is slice `t` of the key array. -/
theorem kblock_apply (c : Dev nD) (t : Fin cfg3.N) (mm : Fin 1024) (d : Fin 64) :
    (iblk3 V c 1 t : Vec Ideal S1x1024x64 .f32) (ix3 (0 : Fin 1) mm d) = (V c main_v13 : Arr S128x1024x64) (ix3 (sliceOf t) mm d) := by
  obtain ⟨-, -, -, e0, e1, e2, -⟩ := index_facts3 t
  unfold iblk3
  rw [View.read_apply]
  show V c main_v13 _ = V c main_v13 _
  congr 1
  funext a
  apply Fin.ext
  match a with
  | ⟨0, _⟩ => show win3_1.index t (0 : Fin 3) * 1 + 1 * 0 = t.val; omega
  | ⟨1, _⟩ => show win3_1.index t (1 : Fin 3) * 1024 + 1 * mm.val = mm.val; omega
  | ⟨2, _⟩ => show win3_1.index t (2 : Fin 3) * 64 + 1 * d.val = d.val; omega

/-- The value block at point `t` is slice `t` of the value array. -/
theorem vblock_apply (c : Dev nD) (t : Fin cfg3.N) (mm : Fin 1024) (d : Fin 64) :
    (iblk3 V c 2 t : Vec Ideal S1x1024x64 .f32) (ix3 (0 : Fin 1) mm d) = (V c main_v16 : Arr S128x1024x64) (ix3 (sliceOf t) mm d) := by
  obtain ⟨-, -, -, -, -, -, e0, e1, e2, -⟩ := index_facts3 t
  unfold iblk3
  rw [View.read_apply]
  show V c main_v16 _ = V c main_v16 _
  congr 1
  funext a
  apply Fin.ext
  match a with
  | ⟨0, _⟩ => show win3_2.index t (0 : Fin 3) * 1 + 1 * 0 = t.val; omega
  | ⟨1, _⟩ => show win3_2.index t (1 : Fin 3) * 1024 + 1 * mm.val = mm.val; omega
  | ⟨2, _⟩ => show win3_2.index t (2 : Fin 3) * 64 + 1 * d.val = d.val; omega

/-- Where element `(0, n, d)` of the output block at point `t` sits in the output array: at `(t, n, d)`. -/
theorem oblock_emb (t : Fin cfg3.N) (n : Fin 512) (d : Fin 64) :
    (((cfg3.win 3).blk t).view.emb (ix3 (0 : Fin 1) n d) : S128x512x64.Idx) = ix3 (sliceOf t) n d := by
  obtain ⟨-, -, -, -, -, -, -, -, -, e0, e1, e2⟩ := index_facts3 t
  funext a
  apply Fin.ext
  match a with
  | ⟨0, _⟩ => show win3_3.index t (0 : Fin 3) * 1 + 1 * 0 = t.val; omega
  | ⟨1, _⟩ => show win3_3.index t (1 : Fin 3) * 512 + 1 * n.val = n.val; omega
  | ⟨2, _⟩ => show win3_3.index t (2 : Fin 3) * 64 + 1 * d.val = d.val; omega

/-- Element by element: what the body leaves in the output block at point `t` is the head function of slice `t`. -/
theorem flushed3_at (c : Dev nD) (t : Fin cfg3.N) (j : S1x512x64.Idx) :
    k3_pay1 (k3_pay2 (iblk3 V c 0 t) (iblk3 V c 1 t) (iblk3 V c 2 t)) j
      = headArr (V c main_v10) (V c main_v13) (V c main_v16) (((cfg3.win 3).blk t).view.emb j) := by
  obtain ⟨n, d, rfl⟩ : ∃ n d, j = ix3 (0 : Fin 1) n d :=
    ⟨j 1, j 2, funext fun a => match a with
      | ⟨0, _⟩ => Fin.ext (show (j 0).val = 0 from by have h : (j 0).val < 1 := (j 0).isLt; omega)
      | ⟨1, _⟩ => rfl
      | ⟨2, _⟩ => rfl⟩
  refine (pay_head _ _ _ n d).trans ?_
  rw [oblock_emb t n d]
  unfold headArr
  have hq : (fun n' d' => (iblk3 V c 0 t : Vec Ideal S1x512x64 .f32) (ix3 (0 : Fin 1) n' d'))
      = fun n' d' => (V c main_v10 : Arr S128x512x64) (ix3 (sliceOf t) n' d') :=
    funext fun n' => funext fun d' => qblock_apply V c t n' d'
  have hk : (fun mm d' => (iblk3 V c 1 t : Vec Ideal S1x1024x64 .f32) (ix3 (0 : Fin 1) mm d'))
      = fun mm d' => (V c main_v13 : Arr S128x1024x64) (ix3 (sliceOf t) mm d') :=
    funext fun mm => funext fun d' => kblock_apply V c t mm d'
  have hv : (fun mm d' => (iblk3 V c 2 t : Vec Ideal S1x1024x64 .f32) (ix3 (0 : Fin 1) mm d'))
      = fun mm d' => (V c main_v16 : Arr S128x1024x64) (ix3 (sliceOf t) mm d') :=
    funext fun mm => funext fun d' => vblock_apply V c t mm d'
  rw [hq, hk, hv]

/-- What point `t` writes back is block `t` of the head array of the three input arrays. -/
theorem flushed3_eq (c : Dev nD) (t : Fin cfg3.N) :
    (dat3 (F := Ideal) V c).flushed 3 t = ((cfg3.win 3).blk t).view.read (Elt Ideal) (headArr (V c main_v10) (V c main_v13) (V c main_v16)) := by
  show (cfg3.win 3).cut (grid3.coords t) ((dat3 V c).after 3 t) = _
  rw [after3_3]
  unfold out3_3
  rw [View.canon_unit_zero zero3]
  simp only [View.ld_unit_zero (S := S1x512x64) zero3, View.ld_unit_zero (S := S1x1024x64) zero3]
  funext j
  exact flushed3_at V c t j

/-- An index of the output array is in point `t`'s block iff each coordinate is in the block's range on its axis. -/
theorem mem_blk3 (t : Fin cfg3.N) (i : S128x512x64.Idx) :
    i ∈ ((cfg3.win 3).blk t).view.set ↔ ∀ a : Fin 3, win3_3.index t a * S1x512x64.size a ≤ (i a).val ∧ (i a).val < win3_3.index t a * S1x512x64.size a + S1x512x64.size a := by
  show i ∈ ((View.whole main_v17).slice (win3_3.rect t)).set ↔ _
  rw [View.set_slice_whole, Rect.mem_set_unit]
  exact Iff.rfl

/-- A slice number of the arrays as a point of the grid. -/
def pointOf (s : Fin 128) : Fin cfg3.N := ⟨s.val, by rw [show cfg3.N = 128 from N_3]; exact s.isLt⟩

/-- Every index of the output array lies in the block of the point its first coordinate names. -/
theorem cover3 (i : S128x512x64.Idx) :
    ∃ t : Fin cfg3.N, (cfg3.win 3).flush t = true ∧ i ∈ ((cfg3.win 3).blk t).view.set := by
  have h0 : (i 0).val < 128 := (i 0).isLt
  have h1 : (i 1).val < 512 := (i 1).isLt
  have h2 : (i 2).val < 64 := (i 2).isLt
  refine ⟨pointOf (i 0), flush3_3 _, ?_⟩
  rw [mem_blk3]
  obtain ⟨-, -, -, -, -, -, -, -, -, e0, e1, e2⟩ := index_facts3 (pointOf (i 0))
  intro a
  match a with
  | ⟨0, _⟩ => show win3_3.index _ (0 : Fin 3) * 1 ≤ (i 0).val ∧ (i 0).val < win3_3.index _ (0 : Fin 3) * 1 + 1; rw [e0]; show (i 0).val * 1 ≤ (i 0).val ∧ (i 0).val < (i 0).val * 1 + 1; omega
  | ⟨1, _⟩ => show win3_3.index _ (1 : Fin 3) * 512 ≤ (i 1).val ∧ (i 1).val < win3_3.index _ (1 : Fin 3) * 512 + 512; rw [e1]; omega
  | ⟨2, _⟩ => show win3_3.index _ (2 : Fin 3) * 64 ≤ (i 2).val ∧ (i 2).val < win3_3.index _ (2 : Fin 3) * 64 + 64; rw [e2]; omega

end AttnLaunch

/-- The output array after the 128 points: each point writes back its slice of the head array, and the slices cover the array. -/
theorem final3 (c : Dev nD) : (dat3 (F := Ideal) V c).arrAt 3 cfg3.N = headArr (V c main_v10) (V c main_v13) (V c main_v16) :=
  (dat3 V c).arrAt_eq_of_cover 3 _ (fun t _ => AttnLaunch.flushed3_eq V c t) AttnLaunch.cover3

end Cert.KernelIdeal.Val

end
-- ==== Proof.KChain.lean ====
/-
  The result array at the end of the kernel program's run, read back through the run's boundaries: the last
  host stretch re-lays the attention launch's output; that launch read the per-head layouts the middle host
  stretch made of the three projection launches' outputs; those launches read the flattened inputs and the
  transposed weights the first host stretch made of the arguments.
-/
import proofs.«146225_j27900107555210_1_alg».proof.Proof.Gen.KernelIdeal.Frame
import proofs.«146225_j27900107555210_1_alg».proof.Proof.KArr
import proofs.«146225_j27900107555210_1_alg».proof.Proof.KFinalP
import proofs.«146225_j27900107555210_1_alg».proof.Proof.KFinalH
import Idealize.ShloMosaic.Lib.StableHlo.Run

set_option maxRecDepth 16384

noncomputable section

open scoped BigOperators

namespace Cert.KernelIdeal.Val

open Cert.KernelIdeal Cert.KernelIdeal.Gen Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

/-! ## The first host stretch: the inputs flattened, the weights transposed -/

theorem W1_v3 (c : Dev nD) : (W1 (F := Ideal) m ρ c (Proc.devRef .tc main_v3) : Arr S8192x768) = xFlat (m ((c : Thread nD τ).loc main_arg0)) := by
  show StableHlo.after hostOps0 (W0 m ρ c) (Proc.devRef .tc main_v3) = _
  after_results
  rfl

theorem W1_v4 (c : Dev nD) : (W1 (F := Ideal) m ρ c (Proc.devRef .tc main_v4) : Arr S16384x768) = yFlat (m ((c : Thread nD τ).loc main_arg1)) := by
  show StableHlo.after hostOps0 (W0 m ρ c) (Proc.devRef .tc main_v4) = _
  after_results
  rfl

theorem W1_v0 (c : Dev nD) : (W1 (F := Ideal) m ρ c (Proc.devRef .tc main_v0) : Arr S768x512) = wT (m ((c : Thread nD τ).loc main_arg2)) := by
  show StableHlo.after hostOps0 (W0 m ρ c) (Proc.devRef .tc main_v0) = _
  after_results
  rfl

theorem W1_v1 (c : Dev nD) : (W1 (F := Ideal) m ρ c (Proc.devRef .tc main_v1) : Arr S768x512) = wT (m ((c : Thread nD τ).loc main_arg3)) := by
  show StableHlo.after hostOps0 (W0 m ρ c) (Proc.devRef .tc main_v1) = _
  after_results
  rfl

theorem W1_v2 (c : Dev nD) : (W1 (F := Ideal) m ρ c (Proc.devRef .tc main_v2) : Arr S768x512) = wT (m ((c : Thread nD τ).loc main_arg4)) := by
  show StableHlo.after hostOps0 (W0 m ρ c) (Proc.devRef .tc main_v2) = _
  after_results
  rfl

/-! ## The three projection launches: each output is the projection array of what the launch read; a launch
    leaves every array that is not its own as it found it -/

theorem W2_v5 (c : Dev nD) : (W2 (F := Ideal) m ρ c (Proc.devRef .tc main_v5) : Arr S8192x512)
    = projArr (M := 8192) (xFlat (m ((c : Thread nD τ).loc main_arg0))) (wT (m ((c : Thread nD τ).loc main_arg2))) := by
  have h : W2 (F := Ideal) m ρ c (Proc.devRef .tc main_v5) = (dat0 (V1 m ρ) c).arrAt 2 cfg0.N := W2_arr m ρ c 2
  rw [h, final0 (V1 m ρ) c]
  show projArr (M := 8192) (W1 m ρ c (Proc.devRef .tc main_v3)) (W1 m ρ c (Proc.devRef .tc main_v0)) = _
  rw [W1_v3, W1_v0]

theorem W3_v6 (c : Dev nD) : (W3 (F := Ideal) m ρ c (Proc.devRef .tc main_v6) : Arr S16384x512)
    = projArr (M := 16384) (yFlat (m ((c : Thread nD τ).loc main_arg1))) (wT (m ((c : Thread nD τ).loc main_arg3))) := by
  have h : W3 (F := Ideal) m ρ c (Proc.devRef .tc main_v6) = (dat1 (V2 m ρ) c).arrAt 2 cfg1.N := W3_arr m ρ c 2
  rw [h, final1 (V2 m ρ) c]
  show projArr (M := 16384) (W2 m ρ c (Proc.devRef .tc main_v4)) (W2 m ρ c (Proc.devRef .tc main_v1)) = _
  rw [W2_of_ne m ρ c main_v4 (by decide), W2_of_ne m ρ c main_v1 (by decide), W1_v4, W1_v1]

/-- The second projection launch only reads the flattened second input: it is there afterwards as before. -/
theorem W3_v4 (c : Dev nD) : (W3 (F := Ideal) m ρ c (Proc.devRef .tc main_v4) : Arr S16384x768) = yFlat (m ((c : Thread nD τ).loc main_arg1)) := by
  have h : W3 (F := Ideal) m ρ c (Proc.devRef .tc main_v4) = (dat1 (V2 m ρ) c).arrAt 0 cfg1.N := W3_arr m ρ c 0
  rw [h, (dat1 (V2 m ρ) c).arrAt_in 0 rfl cfg1.N, A_eq1]
  show W2 m ρ c (Proc.devRef .tc main_v4) = _
  rw [W2_of_ne m ρ c main_v4 (by decide), W1_v4]

theorem W4_v7 (c : Dev nD) : (W4 (F := Ideal) m ρ c (Proc.devRef .tc main_v7) : Arr S16384x512)
    = projArr (M := 16384) (yFlat (m ((c : Thread nD τ).loc main_arg1))) (wT (m ((c : Thread nD τ).loc main_arg4))) := by
  have h : W4 (F := Ideal) m ρ c (Proc.devRef .tc main_v7) = (dat2 (V3 m ρ) c).arrAt 2 cfg2.N := W4_arr m ρ c 2
  rw [h, final2 (V3 m ρ) c]
  show projArr (M := 16384) (W3 m ρ c (Proc.devRef .tc main_v4)) (W3 m ρ c (Proc.devRef .tc main_v2)) = _
  rw [W3_v4, W3_of_ne m ρ c main_v2 (by decide), W2_of_ne m ρ c main_v2 (by decide), W1_v2]

theorem W4_v5 (c : Dev nD) : (W4 (F := Ideal) m ρ c (Proc.devRef .tc main_v5) : Arr S8192x512)
    = projArr (M := 8192) (xFlat (m ((c : Thread nD τ).loc main_arg0))) (wT (m ((c : Thread nD τ).loc main_arg2))) := by
  rw [W4_of_ne m ρ c main_v5 (by decide), W3_of_ne m ρ c main_v5 (by decide)]
  exact W2_v5 m ρ c

theorem W4_v6 (c : Dev nD) : (W4 (F := Ideal) m ρ c (Proc.devRef .tc main_v6) : Arr S16384x512)
    = projArr (M := 16384) (yFlat (m ((c : Thread nD τ).loc main_arg1))) (wT (m ((c : Thread nD τ).loc main_arg3))) := by
  rw [W4_of_ne m ρ c main_v6 (by decide)]
  exact W3_v6 m ρ c

/-! ## The middle host stretch: each projection laid out per head -/

theorem W5_v10 (c : Dev nD) : (W5 (F := Ideal) m ρ c (Proc.devRef .tc main_v10) : Arr S128x512x64)
    = inChainQ (W4 m ρ c (Proc.devRef .tc main_v5)) := by
  show StableHlo.after hostOps3 (W4 m ρ c) (Proc.devRef .tc main_v10) = _
  after_results
  rfl

theorem W5_v13 (c : Dev nD) : (W5 (F := Ideal) m ρ c (Proc.devRef .tc main_v13) : Arr S128x1024x64)
    = inChainK (W4 m ρ c (Proc.devRef .tc main_v6)) := by
  show StableHlo.after hostOps3 (W4 m ρ c) (Proc.devRef .tc main_v13) = _
  after_results
  rfl

theorem W5_v16 (c : Dev nD) : (W5 (F := Ideal) m ρ c (Proc.devRef .tc main_v16) : Arr S128x1024x64)
    = inChainK (W4 m ρ c (Proc.devRef .tc main_v7)) := by
  show StableHlo.after hostOps3 (W4 m ρ c) (Proc.devRef .tc main_v16) = _
  after_results
  rfl

/-! ## The attention launch: its output is the head array of the three per-head layouts -/

theorem W6_v17 (c : Dev nD) : (W6 (F := Ideal) m ρ c (Proc.devRef .tc main_v17) : Arr S128x512x64)
    = headArr (inChainQ (projArr (M := 8192) (xFlat (m ((c : Thread nD τ).loc main_arg0))) (wT (m ((c : Thread nD τ).loc main_arg2)))))
        (inChainK (projArr (M := 16384) (yFlat (m ((c : Thread nD τ).loc main_arg1))) (wT (m ((c : Thread nD τ).loc main_arg3)))))
        (inChainK (projArr (M := 16384) (yFlat (m ((c : Thread nD τ).loc main_arg1))) (wT (m ((c : Thread nD τ).loc main_arg4))))) := by
  have h : W6 (F := Ideal) m ρ c (Proc.devRef .tc main_v17) = (dat3 (V5 m ρ) c).arrAt 3 cfg3.N := W6_arr m ρ c 3
  rw [h, final3 (V5 m ρ) c]
  show headArr (W5 m ρ c (Proc.devRef .tc main_v10)) (W5 m ρ c (Proc.devRef .tc main_v13)) (W5 m ρ c (Proc.devRef .tc main_v16)) = _
  rw [W5_v10, W5_v13, W5_v16, W4_v5, W4_v6, W4_v7]

/-! ## The last host stretch: the heads' outputs laid back out -/

theorem W7_v20_out (c : Dev nD) : (W7 (F := Ideal) m ρ c (Proc.devRef .tc main_v20) : Arr S16x512x512)
    = outChain (W6 m ρ c (Proc.devRef .tc main_v17)) := by
  show StableHlo.after hostOps4 (W6 m ρ c) (Proc.devRef .tc main_v20) = _
  after_results
  rfl

theorem W7_v20 (c : Dev nD) : W7 (F := Ideal) m ρ c (Proc.devRef .tc main_v20)
    = KG (m ((c : Thread nD τ).loc main_arg0)) (m ((c : Thread nD τ).loc main_arg1)) (m ((c : Thread nD τ).loc main_arg2))
        (m ((c : Thread nD τ).loc main_arg3)) (m ((c : Thread nD τ).loc main_arg4)) := by
  rw [W7_v20_out, W6_v17]
  rfl

end Cert.KernelIdeal.Val

end
-- ==== Proof.RefHead.lean ====
/-
  The reference's attention, one head at a time: its value before the closing re-layout, at batch `b`, head `h`,
  row `n`, feature `d`, is `Spec.head` of the (b, h) slices of its per-head q, k and v arrays.
-/
import proofs.«146225_j27900107555210_1_alg».proof.Proof.Gen.ReferenceIdeal.Read
import proofs.«146225_j27900107555210_1_alg».proof.Proof.Spec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- The scaled scores: at (b, h, n, mm) the sum over the 64 features of query (b, h, n) times key (b, h, mm), times the
    word of 1/8. The batched contraction reads its left operand at (b, h, n, k) and its right at (b, h, mm, k). -/
theorem score_at (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v11 (F := Ideal) x0 x1 x2 x3 (ix4 b h n mm)
      = Cert.Spec.scoreRow (fun d' => val_main_v2 (F := Ideal) x0 x2 (ix4 b h n d'))
          (fun mm' d' => val_main_v5 (F := Ideal) x1 x3 (ix4 b h mm' d')) mm := by
  rw [val_main_v11_apply, val_main_v9_apply, val_main_v10_apply, val_main_cst_apply]
  unfold Cert.Spec.scoreRow
  rw [Ideal.mulf_def, Ideal.ofBits_def]
  refine congrArg (· * _) (Finset.sum_congr rfl fun k _ => ?_)
  have el : lidx_main_v9 (ix4 b h n mm) k = ix4 b h n k :=
    funext fun a => Fin.ext (by match a with | ⟨0, _⟩ => rfl | ⟨1, _⟩ => rfl | ⟨2, _⟩ => rfl | ⟨3, _⟩ => rfl)
  have er : ridx_main_v9 (ix4 b h n mm) k = ix4 b h mm k :=
    funext fun a => Fin.ext (by match a with | ⟨0, _⟩ => rfl | ⟨1, _⟩ => rfl | ⟨2, _⟩ => rfl | ⟨3, _⟩ => rfl)
  rw [el, er]

/-- A maximum-reduction over the last axis, read at (b, h, n): `max` is commutative and associative, so the reduction is
    the fold of `max` from the initial value over the 1024 entries (b, h, n, mm) of that row, in any order. -/
theorem maxReduce_row (y : S16x8x512x1024.Idx → Ideal .f32) (init : S_.Idx → Ideal .f32)
    (b : Fin 16) (h : Fin 8) (n : Fin 512) :
    Host.reduce (FloatOps.maximumf (F := Ideal) (φ := .f32)) y init reducesTo_S16x8x512x1024_S16x8x512_d3 h_S_ (ix3 b h n)
      = (Finset.univ : Finset (Fin 1024)).fold max (init (Shape.Idx.first h_S_)) (fun mm => y (ix4 b h n mm)) := by
  have hr : S16x8x512x1024.Reduces [3] S16x8x512 := by decide
  rw [Host.reduce_eq_fold_single (FloatOps.maximumf (F := Ideal) (φ := .f32)) y init reducesTo_S16x8x512x1024_S16x8x512_d3 hr h_S_ (ix3 b h n)]
  have hl : ∀ mm : Fin 1024, hr.lift (ix3 b h n) mm = ix4 b h n mm := fun mm =>
    funext fun a => Fin.ext (by match a with | ⟨0, _⟩ => rfl | ⟨1, _⟩ => rfl | ⟨2, _⟩ => rfl | ⟨3, _⟩ => rfl)
  have hf : (y ∘ hr.lift (ix3 b h n)) = fun mm : Fin 1024 => y (ix4 b h n mm) := funext fun mm => congrArg y (hl mm)
  rw [hf]
  rfl

/-- The first row maximum: at (b, h, n) the maximum of `-∞` and the fold of `max` from `-∞` over the row
    `mm ↦ score (b, h, n, mm)`. -/
theorem rowMax_first (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) :
    val_main_v14 (F := Ideal) x0 x1 x2 x3 (ix3 b h n)
      = Cert.Spec.rowMax (fun mm' => val_main_v11 (F := Ideal) x0 x1 x2 x3 (ix4 b h n mm')) := by
  rw [val_main_v14_apply, val_main_v13_apply, val_main_cst_1_apply]
  unfold val_main_v12
  rw [maxReduce_row]
  rfl

/-- That maximum, repeated along the row: the two broadcasts read it back at (b, h, n) for every `mm`. -/
theorem rowMax_bcast_first (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v16 (F := Ideal) x0 x1 x2 x3 (ix4 b h n mm)
      = Cert.Spec.rowMax (fun mm' => val_main_v11 (F := Ideal) x0 x1 x2 x3 (ix4 b h n mm')) := by
  rw [val_main_v16_apply, val_main_v15_apply]
  have e : idx_main_v15 (idx_main_v16 (ix4 b h n mm)) = ix3 b h n :=
    funext fun a => Fin.ext (by match a with | ⟨0, _⟩ => rfl | ⟨1, _⟩ => rfl | ⟨2, _⟩ => rfl)
  rw [e, rowMax_first]

/-- The numerator: `exp` of the entry minus its row's maximum. -/
theorem expRow_first (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v18 (F := Ideal) x0 x1 x2 x3 (ix4 b h n mm)
      = Ideal.exp (val_main_v11 (F := Ideal) x0 x1 x2 x3 (ix4 b h n mm)
          - Cert.Spec.rowMax (fun mm' => val_main_v11 (F := Ideal) x0 x1 x2 x3 (ix4 b h n mm'))) := by
  rw [val_main_v18_apply, val_main_v17_apply, rowMax_bcast_first, Ideal.hostUnary_exp_def, Ideal.subf_def]

/-- The denominator, repeated along the row: the sum of the numerators over the row (the sum starts from the zero word,
    which is `0`). -/
theorem expSum_first (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v21 (F := Ideal) x0 x1 x2 x3 (ix4 b h n mm)
      = ∑ m' : Fin 1024, Ideal.exp (val_main_v11 (F := Ideal) x0 x1 x2 x3 (ix4 b h n m')
          - Cert.Spec.rowMax (fun mm' => val_main_v11 (F := Ideal) x0 x1 x2 x3 (ix4 b h n mm'))) := by
  rw [val_main_v21_apply, val_main_v20_apply]
  have e : idx_main_v20 (idx_main_v21 (ix4 b h n mm)) = ix3 b h n :=
    funext fun a => Fin.ext (by match a with | ⟨0, _⟩ => rfl | ⟨1, _⟩ => rfl | ⟨2, _⟩ => rfl)
  rw [e, val_main_v19_apply, val_main_cst_2_apply, Ideal.ofBits_def, Ideal.ofBits_zero_f32, zero_add]
  refine Finset.sum_congr rfl fun k _ => ?_
  have ek : idx_main_v19 (ix3 b h n) k = ix4 b h n k :=
    funext fun a => Fin.ext (by match a with | ⟨0, _⟩ => rfl | ⟨1, _⟩ => rfl | ⟨2, _⟩ => rfl | ⟨3, _⟩ => rfl)
  rw [ek, expRow_first]

/-- The first softmax: entry `mm` of the softmax of the row `mm' ↦ score (b, h, n, mm')`. -/
theorem softmax_first (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v22 (F := Ideal) x0 x1 x2 x3 (ix4 b h n mm)
      = Cert.Spec.softmaxRow (fun mm' => val_main_v11 (F := Ideal) x0 x1 x2 x3 (ix4 b h n mm')) mm := by
  rw [val_main_v22_apply, expRow_first, expSum_first, Ideal.hostDivf_def]
  rfl

/-- Between the two softmaxes: one minus the first softmax of the scores' row. -/
theorem one_minus_at (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v24 (F := Ideal) x0 x1 x2 x3 (ix4 b h n mm)
      = Ideal.ofBits .f32 0x3F800000#32
          - Cert.Spec.softmaxRow (fun mm' => val_main_v11 (F := Ideal) x0 x1 x2 x3 (ix4 b h n mm')) mm := by
  rw [val_main_v24_apply, val_main_v23_apply, val_main_cst_3_apply, softmax_first, Ideal.subf_def, Ideal.ofBits_def]

/-- The second row maximum: at (b, h, n) the maximum of `-∞` and the fold of `max` from `-∞` over the row
    `mm ↦ (1 - first softmax) (b, h, n, mm)`. -/
theorem rowMax_second (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) :
    val_main_v27 (F := Ideal) x0 x1 x2 x3 (ix3 b h n)
      = Cert.Spec.rowMax (fun mm' => val_main_v24 (F := Ideal) x0 x1 x2 x3 (ix4 b h n mm')) := by
  rw [val_main_v27_apply, val_main_v26_apply, val_main_cst_5_apply]
  unfold val_main_v25
  rw [maxReduce_row]
  rfl

/-- That maximum, repeated along the row: the two broadcasts read it back at (b, h, n) for every `mm`. -/
theorem rowMax_bcast_second (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v29 (F := Ideal) x0 x1 x2 x3 (ix4 b h n mm)
      = Cert.Spec.rowMax (fun mm' => val_main_v24 (F := Ideal) x0 x1 x2 x3 (ix4 b h n mm')) := by
  rw [val_main_v29_apply, val_main_v28_apply]
  have e : idx_main_v28 (idx_main_v29 (ix4 b h n mm)) = ix3 b h n :=
    funext fun a => Fin.ext (by match a with | ⟨0, _⟩ => rfl | ⟨1, _⟩ => rfl | ⟨2, _⟩ => rfl)
  rw [e, rowMax_second]

/-- The numerator: `exp` of the entry minus its row's maximum. -/
theorem expRow_second (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v31 (F := Ideal) x0 x1 x2 x3 (ix4 b h n mm)
      = Ideal.exp (val_main_v24 (F := Ideal) x0 x1 x2 x3 (ix4 b h n mm)
          - Cert.Spec.rowMax (fun mm' => val_main_v24 (F := Ideal) x0 x1 x2 x3 (ix4 b h n mm'))) := by
  rw [val_main_v31_apply, val_main_v30_apply, rowMax_bcast_second, Ideal.hostUnary_exp_def, Ideal.subf_def]

/-- The denominator, repeated along the row: the sum of the numerators over the row (the sum starts from the zero word,
    which is `0`). -/
theorem expSum_second (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v34 (F := Ideal) x0 x1 x2 x3 (ix4 b h n mm)
      = ∑ m' : Fin 1024, Ideal.exp (val_main_v24 (F := Ideal) x0 x1 x2 x3 (ix4 b h n m')
          - Cert.Spec.rowMax (fun mm' => val_main_v24 (F := Ideal) x0 x1 x2 x3 (ix4 b h n mm'))) := by
  rw [val_main_v34_apply, val_main_v33_apply]
  have e : idx_main_v33 (idx_main_v34 (ix4 b h n mm)) = ix3 b h n :=
    funext fun a => Fin.ext (by match a with | ⟨0, _⟩ => rfl | ⟨1, _⟩ => rfl | ⟨2, _⟩ => rfl)
  rw [e, val_main_v32_apply, val_main_cst_6_apply, Ideal.ofBits_def, Ideal.ofBits_zero_f32, zero_add]
  refine Finset.sum_congr rfl fun k _ => ?_
  have ek : idx_main_v32 (ix3 b h n) k = ix4 b h n k :=
    funext fun a => Fin.ext (by match a with | ⟨0, _⟩ => rfl | ⟨1, _⟩ => rfl | ⟨2, _⟩ => rfl | ⟨3, _⟩ => rfl)
  rw [ek, expRow_second]

/-- The second softmax: entry `mm` of the softmax of the row `mm' ↦ (1 - first softmax) (b, h, n, mm')`. -/
theorem softmax_second (x0 : (⟨S16x512x768, .f32⟩ : BufTy).Contents (Elt Ideal)) (x1 : (⟨S16x1024x768, .f32⟩ : BufTy).Contents (Elt Ideal))
    (x2 x3 : (⟨S512x768, .f32⟩ : BufTy).Contents (Elt Ideal)) (b : Fin 16) (h : Fin 8) (n : Fin 512) (mm : Fin 1024) :
    val_main_v35 (F := Ideal) x0 x1 x2 x3 (ix4 b h n mm)
      = Cert.Spec.softmaxRow (fun mm' => val_main_v24 (F := Ideal) x0 x1 x2 x3 (ix4 b h n mm')) mm := by
  rw [val_main_v35_apply, expRow_second, expSum_second, Ideal.hostDivf_def]
  rfl

theorem ref_head (x0 : (⟨S16x512x768, .f32⟩ : BufTy).Contents (Elt Ideal)) (x1 : (⟨S16x1024x768, .f32⟩ : BufTy).Contents (Elt Ideal))
    (x2 x3 x4 : (⟨S512x768, .f32⟩ : BufTy).Contents (Elt Ideal)) (b : Fin 16) (h : Fin 8) (n : Fin 512) (d : Fin 64) :
    val_main_v37 (F := Ideal) x0 x1 x2 x3 x4 (ix4 b h n d)
      = Cert.Spec.head (fun n' d' => val_main_v2 (F := Ideal) x0 x2 (ix4 b h n' d'))
          (fun mm d' => val_main_v5 (F := Ideal) x1 x3 (ix4 b h mm d'))
          (fun mm d' => val_main_v8 (F := Ideal) x1 x4 (ix4 b h mm d')) n d := by
  -- the closing sum: query entry plus the contraction over the 1024 keys of weight (b, h, n, k) times value (b, h, k, d)
  rw [val_main_v37_apply, val_main_v36_apply, Ideal.addf_def]
  unfold Cert.Spec.head
  refine congrArg (_ + ·) (Finset.sum_congr rfl fun k _ => ?_)
  have el : lidx_main_v36 (ix4 b h n d) k = ix4 b h n k :=
    funext fun a => Fin.ext (by match a with | ⟨0, _⟩ => rfl | ⟨1, _⟩ => rfl | ⟨2, _⟩ => rfl | ⟨3, _⟩ => rfl)
  have er : ridx_main_v36 (ix4 b h n d) k = ix4 b h k d :=
    funext fun a => Fin.ext (by match a with | ⟨0, _⟩ => rfl | ⟨1, _⟩ => rfl | ⟨2, _⟩ => rfl | ⟨3, _⟩ => rfl)
  rw [el, er, softmax_second]
  refine congrArg (· * _) ?_
  -- the weight: the softmax of one minus the softmax of the scaled scores, row by row
  unfold Cert.Spec.weightRow
  refine congrArg (fun s => Cert.Spec.softmaxRow s k) (funext fun m' => ?_)
  rw [one_minus_at]
  refine congrArg (fun s => _ - Cert.Spec.softmaxRow s m') (funext fun m'' => ?_)
  exact score_at x0 x1 x2 x3 b h n m''

end Cert.ReferenceIdeal.RefValue

end
-- ==== Proof.Bridge.lean ====
/-
  The two programs' results are one function of the arguments.  The kernel's projections are the reference's
  (a row `b·512 + n` of the flattened input is row `(b, n)`; the transposed weight's `(k, j)` is the weight's
  `(j, k)`), re-laid the same way; slice `b·8 + h` of the merged per-head arrays is slice `(b, h)`, so the kernel's
  head array is the reference's per-head result with batch and head merged; and both close with the same
  re-layout.
-/
import proofs.«146225_j27900107555210_1_alg».proof.Proof.KArr
import proofs.«146225_j27900107555210_1_alg».proof.Proof.RefHead
import Idealize.ShloMosaic.Lib.Pipeline.Value
import Idealize.ShloMosaic.Lib.ValueIdx

set_option maxRecDepth 16384

noncomputable section

open scoped BigOperators

namespace Cert.Bridge

open Idealize.ShloMosaic Idealize.ShloMosaic.ValueIdx

/-! ### Re-laying an array: composition, and reading at an index when only the two leading axes merge or split -/

/-- Re-laying an array twice is re-laying it once: every re-layout keeps the row-major position. -/
theorem shapeCast_comp {s t u : Shape} {α : Type} (v : s.Idx → α) (h : s.ShapeCasts t) (h' : t.ShapeCasts u)
    (h'' : s.ShapeCasts u) : shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- `[A, B, C] → [M, C]` with `M = A·B`: row `a·B + b` of the merged array is row `(a, b)`. -/
theorem merge32 {A B C M : ℕ} {α : Type} (v : (⟨3, ![A, B, C]⟩ : Shape).Idx → α)
    (h : (⟨3, ![A, B, C]⟩ : Shape).ShapeCasts ⟨2, ![M, C]⟩) (a : Fin A) (b : Fin B) (c : Fin C) (r : Fin M)
    (hr : r.val = a.val * B + b.val) :
    shapeCast ⟨2, ![M, C]⟩ v h (ix2 r c) = v (ix3 a b c) :=
  shapeCast_apply v h (ix2 r c) (ix3 a b c) (by
    rewrite [Shape.rowMajor_val_three, Shape.rowMajor_val_two]
    show (a.val * B + b.val) * C + c.val = r.val * C + c.val
    rw [hr])

/-- `[A, B, C, D] → [M, C, D]` with `M = A·B`: slice `a·B + b` of the merged array is slice `(a, b)`. -/
theorem merge43 {A B C D M : ℕ} {α : Type} (v : (⟨4, ![A, B, C, D]⟩ : Shape).Idx → α)
    (h : (⟨4, ![A, B, C, D]⟩ : Shape).ShapeCasts ⟨3, ![M, C, D]⟩) (a : Fin A) (b : Fin B) (c : Fin C) (d : Fin D)
    (r : Fin M) (hr : r.val = a.val * B + b.val) :
    shapeCast ⟨3, ![M, C, D]⟩ v h (ix3 r c d) = v (ix4 a b c d) :=
  shapeCast_apply v h (ix3 r c d) (ix4 a b c d) (by
    rewrite [Shape.rowMajor_val_four, Shape.rowMajor_val_three]
    show ((a.val * B + b.val) * C + c.val) * D + d.val = (r.val * C + c.val) * D + d.val
    rw [hr])

/-- `[M, C, D] → [A, B, C, D]` with `M = A·B`: slice `(a, b)` of the split array is slice `a·B + b`. -/
theorem split34 {A B C D M : ℕ} {α : Type} (v : (⟨3, ![M, C, D]⟩ : Shape).Idx → α)
    (h : (⟨3, ![M, C, D]⟩ : Shape).ShapeCasts ⟨4, ![A, B, C, D]⟩) (a : Fin A) (b : Fin B) (c : Fin C) (d : Fin D)
    (r : Fin M) (hr : r.val = a.val * B + b.val) :
    shapeCast ⟨4, ![A, B, C, D]⟩ v h (ix4 a b c d) = v (ix3 r c d) :=
  shapeCast_apply v h (ix4 a b c d) (ix3 r c d) (by
    rewrite [Shape.rowMajor_val_four, Shape.rowMajor_val_three]
    show (r.val * C + c.val) * D + d.val = ((a.val * B + b.val) * C + c.val) * D + d.val
    rw [hr])

open Cert.KernelIdeal Cert.KernelIdeal.Gen Cert.KernelIdeal.Val

/-! ### The projections -/

/-- The transposed weight's `(k, j)` is the weight's `(j, k)`. -/
theorem wT_apply (w : Arr S512x768) (k : Fin 768) (j : Fin 512) : wT w (ix2 k j) = w (ix2 j k) := by
  unfold wT
  exact transpose_apply [1, 0] w _ (ix2 k j) (ix2 j k) (fun b => match b with
    | ⟨0, _⟩ => rfl
    | ⟨1, _⟩ => rfl)

/-- Row `r` of the flattened query input is row `(r / 512, r % 512)`. -/
theorem xFlat_apply (x : Arr S16x512x768) (r : Fin 8192) (k : Fin 768) :
    xFlat x (ix2 r k) = x (ix3 (⟨r.val / 512, by omega⟩ : Fin 16) (⟨r.val % 512, by omega⟩ : Fin 512) k) := by
  unfold xFlat
  exact merge32 x _ _ _ k r (by show r.val = r.val / 512 * 512 + r.val % 512; omega)

/-- Row `r` of the flattened key/value input is row `(r / 1024, r % 1024)`. -/
theorem yFlat_apply (y : Arr S16x1024x768) (r : Fin 16384) (k : Fin 768) :
    yFlat y (ix2 r k) = y (ix3 (⟨r.val / 1024, by omega⟩ : Fin 16) (⟨r.val % 1024, by omega⟩ : Fin 1024) k) := by
  unfold yFlat
  exact merge32 y _ _ _ k r (by show r.val = r.val / 1024 * 1024 + r.val % 1024; omega)

/-- The kernel's query projection is the reference's, batch and row merged. -/
theorem proj_q (x : Arr S16x512x768) (wq : Arr S512x768)
    (h : (⟨3, ![16, 512, 512]⟩ : Shape).ShapeCasts S8192x512) :
    projArr (M := 8192) (xFlat x) (wT wq)
      = shapeCast S8192x512 (Cert.ReferenceIdeal.Read.val_main_v0 (F := Ideal) x wq) h := by
  funext i
  obtain ⟨r, j, rfl⟩ : ∃ (r : Fin 8192) (j : Fin 512), i = ix2 r j := ⟨i 0, i 1, eq_ix2 i⟩
  refine Eq.trans ?_ (merge32 (Cert.ReferenceIdeal.Read.val_main_v0 (F := Ideal) x wq) h
    (⟨r.val / 512, by omega⟩ : Fin 16) (⟨r.val % 512, by omega⟩ : Fin 512) j r
    (by show r.val = r.val / 512 * 512 + r.val % 512; omega)).symm
  rw [Cert.ReferenceIdeal.Read.val_main_v0_apply]
  show ∑ k : Fin 768, xFlat x (ix2 r k) * wT wq (ix2 k j) = _
  refine Finset.sum_congr rfl fun k _ => ?_
  rw [xFlat_apply, wT_apply]
  congr 2
  · funext a; match a with
    | ⟨0, _⟩ => rfl
    | ⟨1, _⟩ => rfl
    | ⟨2, _⟩ => rfl
  · funext a; match a with
    | ⟨0, _⟩ => rfl
    | ⟨1, _⟩ => rfl

/-- The kernel's key projection is the reference's, batch and row merged. -/
theorem proj_k (y : Arr S16x1024x768) (wk : Arr S512x768)
    (h : (⟨3, ![16, 1024, 512]⟩ : Shape).ShapeCasts S16384x512) :
    projArr (M := 16384) (yFlat y) (wT wk)
      = shapeCast S16384x512 (Cert.ReferenceIdeal.Read.val_main_v3 (F := Ideal) y wk) h := by
  funext i
  obtain ⟨r, j, rfl⟩ : ∃ (r : Fin 16384) (j : Fin 512), i = ix2 r j := ⟨i 0, i 1, eq_ix2 i⟩
  refine Eq.trans ?_ (merge32 (Cert.ReferenceIdeal.Read.val_main_v3 (F := Ideal) y wk) h
    (⟨r.val / 1024, by omega⟩ : Fin 16) (⟨r.val % 1024, by omega⟩ : Fin 1024) j r
    (by show r.val = r.val / 1024 * 1024 + r.val % 1024; omega)).symm
  rw [Cert.ReferenceIdeal.Read.val_main_v3_apply]
  show ∑ k : Fin 768, yFlat y (ix2 r k) * wT wk (ix2 k j) = _
  refine Finset.sum_congr rfl fun k _ => ?_
  rw [yFlat_apply, wT_apply]
  congr 2
  · funext a; match a with
    | ⟨0, _⟩ => rfl
    | ⟨1, _⟩ => rfl
    | ⟨2, _⟩ => rfl
  · funext a; match a with
    | ⟨0, _⟩ => rfl
    | ⟨1, _⟩ => rfl

/-- The kernel's value projection is the reference's, batch and row merged. -/
theorem proj_v (y : Arr S16x1024x768) (wv : Arr S512x768)
    (h : (⟨3, ![16, 1024, 512]⟩ : Shape).ShapeCasts S16384x512) :
    projArr (M := 16384) (yFlat y) (wT wv)
      = shapeCast S16384x512 (Cert.ReferenceIdeal.Read.val_main_v6 (F := Ideal) y wv) h := by
  funext i
  obtain ⟨r, j, rfl⟩ : ∃ (r : Fin 16384) (j : Fin 512), i = ix2 r j := ⟨i 0, i 1, eq_ix2 i⟩
  refine Eq.trans ?_ (merge32 (Cert.ReferenceIdeal.Read.val_main_v6 (F := Ideal) y wv) h
    (⟨r.val / 1024, by omega⟩ : Fin 16) (⟨r.val % 1024, by omega⟩ : Fin 1024) j r
    (by show r.val = r.val / 1024 * 1024 + r.val % 1024; omega)).symm
  rw [Cert.ReferenceIdeal.Read.val_main_v6_apply]
  show ∑ k : Fin 768, yFlat y (ix2 r k) * wT wv (ix2 k j) = _
  refine Finset.sum_congr rfl fun k _ => ?_
  rw [yFlat_apply, wT_apply]
  congr 2
  · funext a; match a with
    | ⟨0, _⟩ => rfl
    | ⟨1, _⟩ => rfl
    | ⟨2, _⟩ => rfl
  · funext a; match a with
    | ⟨0, _⟩ => rfl
    | ⟨1, _⟩ => rfl

/-! ### The per-head layouts of the projections -/

/-- The query projection laid out per head is the reference's `[16, 8, 512, 64]` stage with batch and head merged. -/
theorem chain_q (x : Arr S16x512x768) (wq : Arr S512x768)
    (h : (⟨3, ![16, 512, 512]⟩ : Shape).ShapeCasts S8192x512)
    (h2 : (⟨4, ![16, 8, 512, 64]⟩ : Shape).ShapeCasts S128x512x64) :
    inChainQ (shapeCast S8192x512 (Cert.ReferenceIdeal.Read.val_main_v0 (F := Ideal) x wq) h)
      = shapeCast S128x512x64 (Cert.ReferenceIdeal.Read.val_main_v2 (F := Ideal) x wq) h2 := by
  unfold inChainQ Cert.ReferenceIdeal.Read.val_main_v2 Cert.ReferenceIdeal.Read.val_main_v1
  generalize Cert.ReferenceIdeal.Read.val_main_v0 (F := Ideal) x wq = P
  rw [shapeCast_comp P h _ (by decide)]

/-- The key projection laid out per head is the reference's `[16, 8, 1024, 64]` stage with batch and head merged. -/
theorem chain_k (y : Arr S16x1024x768) (wk : Arr S512x768)
    (h : (⟨3, ![16, 1024, 512]⟩ : Shape).ShapeCasts S16384x512)
    (h2 : (⟨4, ![16, 8, 1024, 64]⟩ : Shape).ShapeCasts S128x1024x64) :
    inChainK (shapeCast S16384x512 (Cert.ReferenceIdeal.Read.val_main_v3 (F := Ideal) y wk) h)
      = shapeCast S128x1024x64 (Cert.ReferenceIdeal.Read.val_main_v5 (F := Ideal) y wk) h2 := by
  unfold inChainK Cert.ReferenceIdeal.Read.val_main_v5 Cert.ReferenceIdeal.Read.val_main_v4
  generalize Cert.ReferenceIdeal.Read.val_main_v3 (F := Ideal) y wk = P
  rw [shapeCast_comp P h _ (by decide)]

/-- The value projection laid out per head is the reference's `[16, 8, 1024, 64]` stage with batch and head merged. -/
theorem chain_v (y : Arr S16x1024x768) (wv : Arr S512x768)
    (h : (⟨3, ![16, 1024, 512]⟩ : Shape).ShapeCasts S16384x512)
    (h2 : (⟨4, ![16, 8, 1024, 64]⟩ : Shape).ShapeCasts S128x1024x64) :
    inChainK (shapeCast S16384x512 (Cert.ReferenceIdeal.Read.val_main_v6 (F := Ideal) y wv) h)
      = shapeCast S128x1024x64 (Cert.ReferenceIdeal.Read.val_main_v8 (F := Ideal) y wv) h2 := by
  unfold inChainK Cert.ReferenceIdeal.Read.val_main_v8 Cert.ReferenceIdeal.Read.val_main_v7
  generalize Cert.ReferenceIdeal.Read.val_main_v6 (F := Ideal) y wv = P
  rw [shapeCast_comp P h _ (by decide)]

/-! ### The heads -/

/-- Slice `b·8 + h` of the kernel's head array, computed from the merged per-head projections, is the reference's
    per-head result at `(b, h)`. -/
theorem head_eq (x : Arr S16x512x768) (y : Arr S16x1024x768) (wq wk wv : Arr S512x768)
    (hq : (⟨4, ![16, 8, 512, 64]⟩ : Shape).ShapeCasts S128x512x64)
    (hk : (⟨4, ![16, 8, 1024, 64]⟩ : Shape).ShapeCasts S128x1024x64)
    (ho : S128x512x64.ShapeCasts ⟨4, ![16, 8, 512, 64]⟩) :
    shapeCast (⟨4, ![16, 8, 512, 64]⟩ : Shape)
        (headArr (shapeCast S128x512x64 (Cert.ReferenceIdeal.Read.val_main_v2 (F := Ideal) x wq) hq)
          (shapeCast S128x1024x64 (Cert.ReferenceIdeal.Read.val_main_v5 (F := Ideal) y wk) hk)
          (shapeCast S128x1024x64 (Cert.ReferenceIdeal.Read.val_main_v8 (F := Ideal) y wv) hk)) ho
      = Cert.ReferenceIdeal.Read.val_main_v37 (F := Ideal) x y wq wk wv := by
  funext i
  obtain ⟨b, hd, n, d, rfl⟩ : ∃ (b : Fin 16) (hd : Fin 8) (n : Fin 512) (d : Fin 64), i = ix4 b hd n d :=
    ⟨i 0, i 1, i 2, i 3, eq_ix4 i⟩
  refine Eq.trans ?_ (Cert.ReferenceIdeal.RefValue.ref_head x y wq wk wv b hd n d).symm
  generalize Cert.ReferenceIdeal.Read.val_main_v2 (F := Ideal) x wq = Q
  generalize Cert.ReferenceIdeal.Read.val_main_v5 (F := Ideal) y wk = K
  generalize Cert.ReferenceIdeal.Read.val_main_v8 (F := Ideal) y wv = V
  have hr : b.val * 8 + hd.val < 128 := by omega
  refine Eq.trans (split34 _ ho b hd n d ⟨b.val * 8 + hd.val, hr⟩ rfl) ?_
  show Cert.Spec.head (fun n' d' => shapeCast S128x512x64 Q hq (ix3 ⟨b.val * 8 + hd.val, hr⟩ n' d'))
      (fun mm d' => shapeCast S128x1024x64 K hk (ix3 ⟨b.val * 8 + hd.val, hr⟩ mm d'))
      (fun mm d' => shapeCast S128x1024x64 V hk (ix3 ⟨b.val * 8 + hd.val, hr⟩ mm d')) n d = _
  have eq : (fun (n' : Fin 512) (d' : Fin 64) => shapeCast S128x512x64 Q hq (ix3 ⟨b.val * 8 + hd.val, hr⟩ n' d'))
      = fun n' d' => Q (ix4 b hd n' d') :=
    funext fun n' => funext fun d' => merge43 Q hq b hd n' d' ⟨b.val * 8 + hd.val, hr⟩ rfl
  have ek : (fun (mm : Fin 1024) (d' : Fin 64) => shapeCast S128x1024x64 K hk (ix3 ⟨b.val * 8 + hd.val, hr⟩ mm d'))
      = fun mm d' => K (ix4 b hd mm d') :=
    funext fun mm => funext fun d' => merge43 K hk b hd mm d' ⟨b.val * 8 + hd.val, hr⟩ rfl
  have ev : (fun (mm : Fin 1024) (d' : Fin 64) => shapeCast S128x1024x64 V hk (ix3 ⟨b.val * 8 + hd.val, hr⟩ mm d'))
      = fun mm d' => V (ix4 b hd mm d') :=
    funext fun mm => funext fun d' => merge43 V hk b hd mm d' ⟨b.val * 8 + hd.val, hr⟩ rfl
  rw [eq, ek, ev]

/-! ### The whole result -/

theorem KG_eq_ref (x : Cert.KernelIdeal.Val.Arr Cert.KernelIdeal.S16x512x768) (y : Cert.KernelIdeal.Val.Arr Cert.KernelIdeal.S16x1024x768)
    (wq wk wv : Cert.KernelIdeal.Val.Arr Cert.KernelIdeal.S512x768) :
    Cert.KernelIdeal.Val.KG x y wq wk wv = Cert.ReferenceIdeal.Read.val_main_v39 (F := Ideal) x y wq wk wv := by
  unfold KG
  rw [proj_q x wq (by decide), proj_k y wk (by decide), proj_v y wv (by decide),
    chain_q x wq _ (by decide), chain_k y wk _ (by decide), chain_v y wv _ (by decide)]
  unfold outChain Cert.ReferenceIdeal.Read.val_main_v39 Cert.ReferenceIdeal.Read.val_main_v38
  have hh := head_eq x y wq wk wv (by decide) (by decide) (by decide)
  generalize Cert.ReferenceIdeal.Read.val_main_v37 (F := Ideal) x y wq wk wv = Z at hh ⊢
  exact congrArg (fun a => shapeCast S16x512x512 (transpose S16x512x8x64 [0, 2, 1, 3] a
    transposes_S16x8x512x64_S16x512x8x64_0_2_1_3) shapeCasts_S16x512x8x64_S16x512x512) hh

end Cert.Bridge

end
-- ==== Proof.lean ====
/-
  Cross attention with an inverted second softmax, over the extended reals.

  Inputs x [16, 512, 768], y [16, 1024, 768] and three weights [512, 768].  Both programs project x to queries
  and y to keys and values (`∑ k, input · weight` over the 768 features), split the 512 projected features into
  8 heads of 64, and per (batch, head) compute `q + softmax (1 - softmax (q kᵀ / 8)) v`, the softmaxes along the
  1024 keys; the heads' outputs are laid back out as [16, 512, 512].

  The kernel program does this in four launches — three tiled projections of the flattened inputs against the
  transposed weights, then one launch over the 128 (batch, head) slices — with host re-layouts between them; the
  reference does it with batched contractions.  At the ideal values every cast to bf16 is the identity, a tiled
  matrix product into a zero accumulator is the plain sum, and a row's maximum and sum do not depend on the order
  they are folded in; so the equality needs no finiteness: it is the same sums and the same functions of them,
  entry by entry (`Spec.head`, `Spec.proj`), and the same re-layout around them.

  The run of the kernel program with its result array named is `GenRun.run_named`; what that array holds is
  `Val.W7_v20` (the run's boundaries read back to the arguments) — the function `Val.KG`; that the reference's
  result is the same function is `Bridge.KG_eq_ref`.
-/
import proofs.«146225_j27900107555210_1_alg».proof.Defs
import proofs.«146225_j27900107555210_1_alg».proof.Proof.Gen.Kernel
import proofs.«146225_j27900107555210_1_alg».proof.Proof.Gen.Kernel.Skeleton
import proofs.«146225_j27900107555210_1_alg».proof.Proof.Gen.Kernel.Launch
import proofs.«146225_j27900107555210_1_alg».proof.Proof.Gen.Kernel.Points
import proofs.«146225_j27900107555210_1_alg».proof.Proof.Gen.Kernel.Frame
import proofs.«146225_j27900107555210_1_alg».proof.Proof.Gen.KernelIdeal
import proofs.«146225_j27900107555210_1_alg».proof.Proof.Gen.KernelIdeal.Skeleton
import proofs.«146225_j27900107555210_1_alg».proof.Proof.Gen.KernelIdeal.Launch
import proofs.«146225_j27900107555210_1_alg».proof.Proof.Gen.KernelIdeal.Points
import proofs.«146225_j27900107555210_1_alg».proof.Proof.Gen.KernelIdeal.Frame
import proofs.«146225_j27900107555210_1_alg».proof.Proof.Gen.ReferenceIdeal
import proofs.«146225_j27900107555210_1_alg».proof.Proof.Gen.ReferenceIdeal.Run
import proofs.«146225_j27900107555210_1_alg».proof.Proof.Gen.ReferenceIdeal.Read
import proofs.«146225_j27900107555210_1_alg».proof.Proof.Gen.Pre_finite_inputs
import proofs.«146225_j27900107555210_1_alg».proof.Proof.KRun
import proofs.«146225_j27900107555210_1_alg».proof.Proof.KChain
import proofs.«146225_j27900107555210_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program at the ideal values. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `KG` of the arguments. -/
theorem algebraic : Cert.algebraic_KernelIdeal_ReferenceIdeal := by
  intro m ρ m' ρ' _ hagree
  refine ⟨fun c => Cert.KernelIdeal.Val.KG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Val.W7_v20 m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, (hagree c).1, (hagree c).2.1, (hagree c).2.2.1, (hagree c).2.2.2.1,
      (hagree c).2.2.2.2]
    exact (Cert.Bridge.KG_eq_ref _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
